-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v16)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v16) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v27) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x1536 : Shape := ⟨2, ![16384, 1536]⟩
abbrev S1536x1536 : Shape := ⟨2, ![1536, 1536]⟩
abbrev S1536 : Shape := ⟨1, ![1536]⟩
abbrev S1536x3072 : Shape := ⟨2, ![1536, 3072]⟩
abbrev S3072x1536 : Shape := ⟨2, ![3072, 1536]⟩
abbrev S1536x512 : Shape := ⟨2, ![1536, 512]⟩
abbrev S512 : Shape := ⟨1, ![512]⟩
abbrev S512x512 : Shape := ⟨2, ![512, 512]⟩
abbrev S512x6 : Shape := ⟨2, ![512, 6]⟩
abbrev S6 : Shape := ⟨1, ![6]⟩
abbrev S_ : Shape := ⟨0, ![]⟩

class Facts : Prop where
  bcast_S_S16384x1536 : S_.BroadcastsInDim S16384x1536 (![] : Fin 0 → Fin S16384x1536.rank)
  reducesTo_S16384x1536_S_d0_1 : S16384x1536.ReducesTo [0, 1] S_
  h_S_ : 0 < S_.numel
  bcast_S_S1536x1536 : S_.BroadcastsInDim S1536x1536 (![] : Fin 0 → Fin S1536x1536.rank)
  reducesTo_S1536x1536_S_d0_1 : S1536x1536.ReducesTo [0, 1] S_
  bcast_S_S1536 : S_.BroadcastsInDim S1536 (![] : Fin 0 → Fin S1536.rank)
  reducesTo_S1536_S_d0 : S1536.ReducesTo [0] S_
  bcast_S_S1536x3072 : S_.BroadcastsInDim S1536x3072 (![] : Fin 0 → Fin S1536x3072.rank)
  reducesTo_S1536x3072_S_d0_1 : S1536x3072.ReducesTo [0, 1] S_
  bcast_S_S3072x1536 : S_.BroadcastsInDim S3072x1536 (![] : Fin 0 → Fin S3072x1536.rank)
  reducesTo_S3072x1536_S_d0_1 : S3072x1536.ReducesTo [0, 1] S_
  bcast_S_S1536x512 : S_.BroadcastsInDim S1536x512 (![] : Fin 0 → Fin S1536x512.rank)
  reducesTo_S1536x512_S_d0_1 : S1536x512.ReducesTo [0, 1] S_
  bcast_S_S512 : S_.BroadcastsInDim S512 (![] : Fin 0 → Fin S512.rank)
  reducesTo_S512_S_d0 : S512.ReducesTo [0] S_
  bcast_S_S512x512 : S_.BroadcastsInDim S512x512 (![] : Fin 0 → Fin S512x512.rank)
  reducesTo_S512x512_S_d0_1 : S512x512.ReducesTo [0, 1] S_
  bcast_S_S512x6 : S_.BroadcastsInDim S512x6 (![] : Fin 0 → Fin S512x6.rank)
  reducesTo_S512x6_S_d0_1 : S512x6.ReducesTo [0, 1] S_
  bcast_S_S6 : S_.BroadcastsInDim S6 (![] : Fin 0 → Fin S6.rank)
  reducesTo_S6_S_d0 : S6.ReducesTo [0] S_

variable [Facts]

def fn_part3 {F : FTy → Type} [FloatOps F] (main_arg11 : FVec F S512x6 .f32) (main_arg12 : FVec F S6 .f32) (main_v48 : IVec S_ 1) (main_v49 : FVec F S512 .f32) (main_v50 : FVec F S512 .f32) : IVec S_ 1 :=
  let main_v51 : IVec S512 1 := cmpf .olt main_v49 main_v50
  let main_c_19 : IVec S_ 1 := constantI S_ 1 1#1
  let main_v52 : IVec S_ 1 := (fun x v => Host.reduce IntOp.andi x v reducesTo_S512_S_d0 h_S_) main_v51 main_c_19
  let main_v53 : IVec S_ 1 := andi main_v48 main_v52
  let main_v54 : FVec F S512x6 .f32 := Host.absf main_arg11
  let main_cst_20 : FVec F S_ .f32 := constant S_ .f32 0x7F800000#32
  let main_v55 : FVec F S512x6 .f32 := broadcastInDim S512x6 ![] bcast_S_S512x6 main_cst_20
  let main_v56 : IVec S512x6 1 := cmpf .olt main_v54 main_v55
  let main_c_21 : IVec S_ 1 := constantI S_ 1 1#1
  let main_v57 : IVec S_ 1 := (fun x v => Host.reduce IntOp.andi x v reducesTo_S512x6_S_d0_1 h_S_) main_v56 main_c_21
  let main_v58 : IVec S_ 1 := andi main_v53 main_v57
  let main_v59 : FVec F S6 .f32 := Host.absf main_arg12
  let main_cst_22 : FVec F S_ .f32 := constant S_ .f32 0x7F800000#32
  let main_v60 : FVec F S6 .f32 := broadcastInDim S6 ![] bcast_S_S6 main_cst_22
  let main_v61 : IVec S6 1 := cmpf .olt main_v59 main_v60
  let main_c_23 : IVec S_ 1 := constantI S_ 1 1#1
  let main_v62 : IVec S_ 1 := (fun x v => Host.reduce IntOp.andi x v reducesTo_S6_S_d0 h_S_) main_v61 main_c_23
  let main_v63 : IVec S_ 1 := andi main_v58 main_v62
  main_v63

def fn_part2 {F : FTy → Type} [FloatOps F] (main_arg7 : FVec F S1536x512 .f32) (main_arg8 : FVec F S512 .f32) (main_arg9 : FVec F S512x512 .f32) (main_arg10 : FVec F S512 .f32) (main_arg11 : FVec F S512x6 .f32) (main_arg12 : FVec F S6 .f32) (main_v33 : IVec S_ 1) : IVec S_ 1 :=
  let main_v34 : FVec F S1536x512 .f32 := Host.absf main_arg7
  let main_cst_12 : FVec F S_ .f32 := constant S_ .f32 0x7F800000#32
  let main_v35 : FVec F S1536x512 .f32 := broadcastInDim S1536x512 ![] bcast_S_S1536x512 main_cst_12
  let main_v36 : IVec S1536x512 1 := cmpf .olt main_v34 main_v35
  let main_c_13 : IVec S_ 1 := constantI S_ 1 1#1
  let main_v37 : IVec S_ 1 := (fun x v => Host.reduce IntOp.andi x v reducesTo_S1536x512_S_d0_1 h_S_) main_v36 main_c_13
  let main_v38 : IVec S_ 1 := andi main_v33 main_v37
  let main_v39 : FVec F S512 .f32 := Host.absf main_arg8
  let main_cst_14 : FVec F S_ .f32 := constant S_ .f32 0x7F800000#32
  let main_v40 : FVec F S512 .f32 := broadcastInDim S512 ![] bcast_S_S512 main_cst_14
  let main_v41 : IVec S512 1 := cmpf .olt main_v39 main_v40
  let main_c_15 : IVec S_ 1 := constantI S_ 1 1#1
  let main_v42 : IVec S_ 1 := (fun x v => Host.reduce IntOp.andi x v reducesTo_S512_S_d0 h_S_) main_v41 main_c_15
  let main_v43 : IVec S_ 1 := andi main_v38 main_v42
  let main_v44 : FVec F S512x512 .f32 := Host.absf main_arg9
  let main_cst_16 : FVec F S_ .f32 := constant S_ .f32 0x7F800000#32
  let main_v45 : FVec F S512x512 .f32 := broadcastInDim S512x512 ![] bcast_S_S512x512 main_cst_16
  let main_v46 : IVec S512x512 1 := cmpf .olt main_v44 main_v45
  let main_c_17 : IVec S_ 1 := constantI S_ 1 1#1
  let main_v47 : IVec S_ 1 := (fun x v => Host.reduce IntOp.andi x v reducesTo_S512x512_S_d0_1 h_S_) main_v46 main_c_17
  let main_v48 : IVec S_ 1 := andi main_v43 main_v47
  let main_v49 : FVec F S512 .f32 := Host.absf main_arg10
  let main_cst_18 : FVec F S_ .f32 := constant S_ .f32 0x7F800000#32
  let main_v50 : FVec F S512 .f32 := broadcastInDim S512 ![] bcast_S_S512 main_cst_18
  fn_part3 (F := F) main_arg11 main_arg12 main_v48 main_v49 main_v50

def fn_part1 {F : FTy → Type} [FloatOps F] (main_arg4 : FVec F S1536x3072 .f32) (main_arg5 : FVec F S3072x1536 .f32) (main_arg6 : FVec F S1536 .f32) (main_arg7 : FVec F S1536x512 .f32) (main_arg8 : FVec F S512 .f32) (main_arg9 : FVec F S512x512 .f32) (main_arg10 : FVec F S512 .f32) (main_arg11 : FVec F S512x6 .f32) (main_arg12 : FVec F S6 .f32) (main_v13 : IVec S_ 1) (main_v16 : IVec S1536 1) : IVec S_ 1 :=
  let main_c_5 : IVec S_ 1 := constantI S_ 1 1#1
  let main_v17 : IVec S_ 1 := (fun x v => Host.reduce IntOp.andi x v reducesTo_S1536_S_d0 h_S_) main_v16 main_c_5
  let main_v18 : IVec S_ 1 := andi main_v13 main_v17
  let main_v19 : FVec F S1536x3072 .f32 := Host.absf main_arg4
  let main_cst_6 : FVec F S_ .f32 := constant S_ .f32 0x7F800000#32
  let main_v20 : FVec F S1536x3072 .f32 := broadcastInDim S1536x3072 ![] bcast_S_S1536x3072 main_cst_6
  let main_v21 : IVec S1536x3072 1 := cmpf .olt main_v19 main_v20
  let main_c_7 : IVec S_ 1 := constantI S_ 1 1#1
  let main_v22 : IVec S_ 1 := (fun x v => Host.reduce IntOp.andi x v reducesTo_S1536x3072_S_d0_1 h_S_) main_v21 main_c_7
  let main_v23 : IVec S_ 1 := andi main_v18 main_v22
  let main_v24 : FVec F S3072x1536 .f32 := Host.absf main_arg5
  let main_cst_8 : FVec F S_ .f32 := constant S_ .f32 0x7F800000#32
  let main_v25 : FVec F S3072x1536 .f32 := broadcastInDim S3072x1536 ![] bcast_S_S3072x1536 main_cst_8
  let main_v26 : IVec S3072x1536 1 := cmpf .olt main_v24 main_v25
  let main_c_9 : IVec S_ 1 := constantI S_ 1 1#1
  let main_v27 : IVec S_ 1 := (fun x v => Host.reduce IntOp.andi x v reducesTo_S3072x1536_S_d0_1 h_S_) main_v26 main_c_9
  let main_v28 : IVec S_ 1 := andi main_v23 main_v27
  let main_v29 : FVec F S1536 .f32 := Host.absf main_arg6
  let main_cst_10 : FVec F S_ .f32 := constant S_ .f32 0x7F800000#32
  let main_v30 : FVec F S1536 .f32 := broadcastInDim S1536 ![] bcast_S_S1536 main_cst_10
  let main_v31 : IVec S1536 1 := cmpf .olt main_v29 main_v30
  let main_c_11 : IVec S_ 1 := constantI S_ 1 1#1
  let main_v32 : IVec S_ 1 := (fun x v => Host.reduce IntOp.andi x v reducesTo_S1536_S_d0 h_S_) main_v31 main_c_11
  let main_v33 : IVec S_ 1 := andi main_v28 main_v32
  fn_part2 (F := F) main_arg7 main_arg8 main_arg9 main_arg10 main_arg11 main_arg12 main_v33

def fn {F : FTy → Type} [FloatOps F] (main_arg0 : FVec F S16384x1536 .f32) (main_arg1 : FVec F S1536x1536 .f32) (main_arg2 : FVec F S1536x1536 .f32) (main_arg3 : FVec F S1536 .f32) (main_arg4 : FVec F S1536x3072 .f32) (main_arg5 : FVec F S3072x1536 .f32) (main_arg6 : FVec F S1536 .f32) (main_arg7 : FVec F S1536x512 .f32) (main_arg8 : FVec F S512 .f32) (main_arg9 : FVec F S512x512 .f32) (main_arg10 : FVec F S512 .f32) (main_arg11 : FVec F S512x6 .f32) (main_arg12 : FVec F S6 .f32) : IVec S_ 1 :=
  let main_v0 : FVec F S16384x1536 .f32 := Host.absf main_arg0
  let main_cst : FVec F S_ .f32 := constant S_ .f32 0x7F800000#32
  let main_v1 : FVec F S16384x1536 .f32 := broadcastInDim S16384x1536 ![] bcast_S_S16384x1536 main_cst
  let main_v2 : IVec S16384x1536 1 := cmpf .olt main_v0 main_v1
  let main_c : IVec S_ 1 := constantI S_ 1 1#1
  let main_v3 : IVec S_ 1 := (fun x v => Host.reduce IntOp.andi x v reducesTo_S16384x1536_S_d0_1 h_S_) main_v2 main_c
  let main_v4 : FVec F S1536x1536 .f32 := Host.absf main_arg1
  let main_cst_0 : FVec F S_ .f32 := constant S_ .f32 0x7F800000#32
  let main_v5 : FVec F S1536x1536 .f32 := broadcastInDim S1536x1536 ![] bcast_S_S1536x1536 main_cst_0
  let main_v6 : IVec S1536x1536 1 := cmpf .olt main_v4 main_v5
  let main_c_1 : IVec S_ 1 := constantI S_ 1 1#1
  let main_v7 : IVec S_ 1 := (fun x v => Host.reduce IntOp.andi x v reducesTo_S1536x1536_S_d0_1 h_S_) main_v6 main_c_1
  let main_v8 : IVec S_ 1 := andi main_v3 main_v7
  let main_v9 : FVec F S1536x1536 .f32 := Host.absf main_arg2
  let main_cst_2 : FVec F S_ .f32 := constant S_ .f32 0x7F800000#32
  let main_v10 : FVec F S1536x1536 .f32 := broadcastInDim S1536x1536 ![] bcast_S_S1536x1536 main_cst_2
  let main_v11 : IVec S1536x1536 1 := cmpf .olt main_v9 main_v10
  let main_c_3 : IVec S_ 1 := constantI S_ 1 1#1
  let main_v12 : IVec S_ 1 := (fun x v => Host.reduce IntOp.andi x v reducesTo_S1536x1536_S_d0_1 h_S_) main_v11 main_c_3
  let main_v13 : IVec S_ 1 := andi main_v8 main_v12
  let main_v14 : FVec F S1536 .f32 := Host.absf main_arg3
  let main_cst_4 : FVec F S_ .f32 := constant S_ .f32 0x7F800000#32
  let main_v15 : FVec F S1536 .f32 := broadcastInDim S1536 ![] bcast_S_S1536 main_cst_4
  let main_v16 : IVec S1536 1 := cmpf .olt main_v14 main_v15
  fn_part1 (F := F) main_arg4 main_arg5 main_arg6 main_arg7 main_arg8 main_arg9 main_arg10 main_arg11 main_arg12 main_v13 main_v16
-- ==== Kernel.lean ====
abbrev S16384x1536 : Shape := ⟨2, ![16384, 1536]⟩
abbrev S1536x1536 : Shape := ⟨2, ![1536, 1536]⟩
abbrev S1536 : Shape := ⟨1, ![1536]⟩
abbrev S1536x3072 : Shape := ⟨2, ![1536, 3072]⟩
abbrev S3072x1536 : Shape := ⟨2, ![3072, 1536]⟩
abbrev S1536x512 : Shape := ⟨2, ![1536, 512]⟩
abbrev S512 : Shape := ⟨1, ![512]⟩
abbrev S512x512 : Shape := ⟨2, ![512, 512]⟩
abbrev S512x6 : Shape := ⟨2, ![512, 6]⟩
abbrev S6 : Shape := ⟨1, ![6]⟩
abbrev S1x1536 : Shape := ⟨2, ![1, 1536]⟩
abbrev S1x512 : Shape := ⟨2, ![1, 512]⟩
abbrev S1x6 : Shape := ⟨2, ![1, 6]⟩
abbrev S16384x6 : Shape := ⟨2, ![16384, 6]⟩
abbrev S512x1536 : Shape := ⟨2, ![512, 1536]⟩

abbrev nBuf : Space → Nat
  | .hbm => 30
  | .vmem => 15
  | .smem => 0
  | _ => 0

abbrev bufTy : (tb : Table) → Fin (tcTables nBuf tb) → BufTy
  | .hbm, ⟨0, _⟩ => ⟨S16384x1536, .f32⟩
  | .hbm, ⟨1, _⟩ => ⟨S1536x1536, .f32⟩
  | .hbm, ⟨2, _⟩ => ⟨S1536x1536, .f32⟩
  | .hbm, ⟨3, _⟩ => ⟨S1536, .f32⟩
  | .hbm, ⟨4, _⟩ => ⟨S1536x3072, .f32⟩
  | .hbm, ⟨5, _⟩ => ⟨S3072x1536, .f32⟩
  | .hbm, ⟨6, _⟩ => ⟨S1536, .f32⟩
  | .hbm, ⟨7, _⟩ => ⟨S1536x512, .f32⟩
  | .hbm, ⟨8, _⟩ => ⟨S512, .f32⟩
  | .hbm, ⟨9, _⟩ => ⟨S512x512, .f32⟩
  | .hbm, ⟨10, _⟩ => ⟨S512, .f32⟩
  | .hbm, ⟨11, _⟩ => ⟨S512x6, .f32⟩
  | .hbm, ⟨12, _⟩ => ⟨S6, .f32⟩
  | .hbm, ⟨13, _⟩ => ⟨S1536x1536, .f32⟩
  | .hbm, ⟨14, _⟩ => ⟨S1536x1536, .f32⟩
  | .hbm, ⟨15, _⟩ => ⟨S1536x1536, .bf16⟩
  | .hbm, ⟨16, _⟩ => ⟨S3072x1536, .f32⟩
  | .hbm, ⟨17, _⟩ => ⟨S3072x1536, .f32⟩
  | .hbm, ⟨18, _⟩ => ⟨S3072x1536, .bf16⟩
  | .hbm, ⟨19, _⟩ => ⟨S1536x1536, .bf16⟩
  | .hbm, ⟨20, _⟩ => ⟨S1536x1536, .bf16⟩
  | .hbm, ⟨21, _⟩ => ⟨S1536x512, .bf16⟩
  | .hbm, ⟨22, _⟩ => ⟨S512x512, .bf16⟩
  | .hbm, ⟨23, _⟩ => ⟨S512x6, .bf16⟩
  | .hbm, ⟨24, _⟩ => ⟨S1x1536, .f32⟩
  | .hbm, ⟨25, _⟩ => ⟨S1x1536, .f32⟩
  | .hbm, ⟨26, _⟩ => ⟨S1x512, .f32⟩
  | .hbm, ⟨27, _⟩ => ⟨S1x512, .f32⟩
  | .hbm, ⟨28, _⟩ => ⟨S1x6, .f32⟩
  | .hbm, ⟨29, _⟩ => ⟨S16384x6, .f32⟩
  | .local _ .vmem, ⟨0, _⟩ => ⟨S512x1536, .f32⟩
  | .local _ .vmem, ⟨1, _⟩ => ⟨S512x1536, .f32⟩
  | .local _ .vmem, ⟨2, _⟩ => ⟨S1536x1536, .bf16⟩
  | .local _ .vmem, ⟨3, _⟩ => ⟨S1x1536, .f32⟩
  | .local _ .vmem, ⟨4, _⟩ => ⟨S1536x1536, .bf16⟩
  | .local _ .vmem, ⟨5, _⟩ => ⟨S1536x1536, .bf16⟩
  | .local _ .vmem, ⟨6, _⟩ => ⟨S1x1536, .f32⟩
  | .local _ .vmem, ⟨7, _⟩ => ⟨S1536x512, .bf16⟩
  | .local _ .vmem, ⟨8, _⟩ => ⟨S1x512, .f32⟩
  | .local _ .vmem, ⟨9, _⟩ => ⟨S512x512, .bf16⟩
  | .local _ .vmem, ⟨10, _⟩ => ⟨S1x512, .f32⟩
  | .local _ .vmem, ⟨11, _⟩ => ⟨S512x6, .bf16⟩
  | .local _ .vmem, ⟨12, _⟩ => ⟨S1x6, .f32⟩
  | .local _ .vmem, ⟨13, _⟩ => ⟨S512x6, .f32⟩
  | .local _ .vmem, ⟨14, _⟩ => ⟨S512x6, .f32⟩
  | _, _ => ⟨S16384x1536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg12_0 : Ref sig .tc := ⟨.vmem, 13, rfl⟩
abbrev cc0_stg12_1 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem12_0 : DmaSem sig := 13
abbrev cc0_sem12_1 : DmaSem sig := 14

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1536 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1536x1536 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1536 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1536x1536 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1536x1536 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1536 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1536x512 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S512x512 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S512x6 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x6 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S512x6 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

class Facts₀ : Prop where
  transposes_S1536x1536_S1536x1536_1_0 : S1536x1536.Transposes [1, 0] S1536x1536
  bitsLt_bf16_f32 : FTy.bits .bf16 < FTy.bits .f32
  transposes_S1536x3072_S3072x1536_1_0 : S1536x3072.Transposes [1, 0] S3072x1536
  slices_S3072x1536_S1536x1536_0_0 : S3072x1536.Slices ![0, 0] S1536x1536
  slices_S3072x1536_S1536x1536_1536_0 : S3072x1536.Slices ![1536, 0] S1536x1536
  shapeCasts_S1536_S1x1536 : S1536.ShapeCasts S1x1536
  shapeCasts_S512_S1x512 : S512.ShapeCasts S1x512
  shapeCasts_S6_S1x6 : S6.ShapeCasts S1x6
  inb_S512x1536_S512x1536_0_0 : ∀ a, (![0, 0] : Fin 2 → Nat) a + S512x1536.size a ≤ S512x1536.size a
  h_S512x1536 : 0 < S512x1536.numel
  inb_S1536x1536_S1536x1536_0_0 : ∀ a, (![0, 0] : Fin 2 → Nat) a + S1536x1536.size a ≤ S1536x1536.size a
  h_S1536x1536 : 0 < S1536x1536.numel
  shapeCasts_S1536x1536_S1536x1536 : S1536x1536.ShapeCasts S1536x1536
  inb_S1x1536_S1x1536_0_0 : ∀ a, (![0, 0] : Fin 2 → Nat) a + S1x1536.size a ≤ S1x1536.size a
  h_S1x1536 : 0 < S1x1536.numel
  shapeCasts_S1x1536_S1x1536 : S1x1536.ShapeCasts S1x1536
  broadcasts_S1x1536_S512x1536 : S1x1536.Broadcasts S512x1536
  inb_S1536x512_S1536x512_0_0 : ∀ a, (![0, 0] : Fin 2 → Nat) a + S1536x512.size a ≤ S1536x512.size a
  h_S1536x512 : 0 < S1536x512.numel
  shapeCasts_S1536x512_S1536x512 : S1536x512.ShapeCasts S1536x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S512x512 : S1x512.Broadcasts S512x512
  inb_S512x512_S512x512_0_0 : ∀ a, (![0, 0] : Fin 2 → Nat) a + S512x512.size a ≤ S512x512.size a
  h_S512x512 : 0 < S512x512.numel
  shapeCasts_S512x512_S512x512 : S512x512.ShapeCasts S512x512
  inb_S512x6_S512x6_0_0 : ∀ a, (![0, 0] : Fin 2 → Nat) a + S512x6.size a ≤ S512x6.size a
  h_S512x6 : 0 < S512x6.numel
  shapeCasts_S512x6_S512x6 : S512x6.ShapeCasts S512x6
  inb_S1x6_S1x6_0_0 : ∀ a, (![0, 0] : Fin 2 → Nat) a + S1x6.size a ≤ S1x6.size a
  h_S1x6 : 0 < S1x6.numel
  shapeCasts_S1x6_S1x6 : S1x6.ShapeCasts S1x6
  broadcasts_S1x6_S512x6 : S1x6.Broadcasts S512x6
  dot_S512x1536_S1536x1536_S512x1536_1_0_0_1_n_n_wf : DotDims.WF S512x1536 S1536x1536 S512x1536 [1] [0] [0] [1] [] []
  dot_S512x1536_S1536x512_S512x512_1_0_0_1_n_n_wf : DotDims.WF S512x1536 S1536x512 S512x512 [1] [0] [0] [1] [] []
  dot_S512x512_S512x512_S512x512_1_0_0_1_n_n_wf : DotDims.WF S512x512 S512x512 S512x512 [1] [0] [0] [1] [] []
  dot_S512x512_S512x6_S512x6_1_0_0_1_n_n_wf : DotDims.WF S512x512 S512x6 S512x6 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1536.size a ≤ S16384x1536.size a
  hwx0_0 : ∀ i : grid0.Coords, EltTy.bits .f32 = 32 ∨ (Rect.block (s := S16384x1536) S512x1536.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1536x1536.size a ≤ S1536x1536.size a
  hwx0_1 : ∀ i : grid0.Coords, EltTy.bits .bf16 = 32 ∨ (Rect.block (s := S1536x1536) S1536x1536.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1536.size a ≤ S1x1536.size a
  hwx0_2 : ∀ i : grid0.Coords, EltTy.bits .f32 = 32 ∨ (Rect.block (s := S1x1536) S1x1536.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1536x1536.size a ≤ S1536x1536.size a
  hwx0_3 : ∀ i : grid0.Coords, EltTy.bits .bf16 = 32 ∨ (Rect.block (s := S1536x1536) S1536x1536.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1536x1536.size a ≤ S1536x1536.size a
  hwx0_4 : ∀ i : grid0.Coords, EltTy.bits .bf16 = 32 ∨ (Rect.block (s := S1536x1536) S1536x1536.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x1536.size a ≤ S1x1536.size a
  hwx0_5 : ∀ i : grid0.Coords, EltTy.bits .f32 = 32 ∨ (Rect.block (s := S1x1536) S1x1536.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1536x512.size a ≤ S1536x512.size a
  hwx0_6 : ∀ i : grid0.Coords, EltTy.bits .bf16 = 32 ∨ (Rect.block (s := S1536x512) S1536x512.size (cc0_transform_6 i) (hinb0_6 i)).WholeWords (EltTy.packing .bf16)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x512.size a ≤ S1x512.size a
  hwx0_7 : ∀ i : grid0.Coords, EltTy.bits .f32 = 32 ∨ (Rect.block (s := S1x512) S1x512.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S512x512.size a ≤ S512x512.size a
  hwx0_8 : ∀ i : grid0.Coords, EltTy.bits .bf16 = 32 ∨ (Rect.block (s := S512x512) S512x512.size (cc0_transform_8 i) (hinb0_8 i)).WholeWords (EltTy.packing .bf16)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1x512.size a ≤ S1x512.size a
  hwx0_9 : ∀ i : grid0.Coords, EltTy.bits .f32 = 32 ∨ (Rect.block (s := S1x512) S1x512.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S512x6.size a ≤ S512x6.size a
  hwx0_10 : ∀ i : grid0.Coords, EltTy.bits .bf16 = 32 ∨ (Rect.block (s := S512x6) S512x6.size (cc0_transform_10 i) (hinb0_10 i)).WholeWords (EltTy.packing .bf16)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S1x6.size a ≤ S1x6.size a
  hwx0_11 : ∀ i : grid0.Coords, EltTy.bits .f32 = 32 ∨ (Rect.block (s := S1x6) S1x6.size (cc0_transform_11 i) (hinb0_11 i)).WholeWords (EltTy.packing .f32)
  hstage0_12 : ∀ j, (stage0_12 j).IsWhole
  nbuf0_12 : grid0.bufCount reads0_12 false = 2
  hreads0_12 : ∀ i i' : grid0.Coords, (∀ a, reads0_12 a = true → i a = i' a) → cc0_transform_12 i = cc0_transform_12 i'
  hinb0_12 : ∀ (i : grid0.Coords) a, (cc0_transform_12 i a + 1) * S512x6.size a ≤ S16384x6.size a
  hwx0_12 : ∀ i : grid0.Coords, EltTy.bits .f32 = 32 ∨ (Rect.block (s := S16384x6) S512x6.size (cc0_transform_12 i) (hinb0_12 i)).WholeWords (EltTy.packing .f32)

variable [Facts₀]

def dot_S512x1536_S1536x1536_S512x1536_1_0_0_1_n_n : DotDims S512x1536 S1536x1536 S512x1536 where
  lhsContracting := [1]
  rhsContracting := [0]
  lhsNonContracting := [0]
  rhsNonContracting := [1]
  lhsBatch := []
  rhsBatch := []
  wf := dot_S512x1536_S1536x1536_S512x1536_1_0_0_1_n_n_wf
def dot_S512x1536_S1536x512_S512x512_1_0_0_1_n_n : DotDims S512x1536 S1536x512 S512x512 where
  lhsContracting := [1]
  rhsContracting := [0]
  lhsNonContracting := [0]
  rhsNonContracting := [1]
  lhsBatch := []
  rhsBatch := []
  wf := dot_S512x1536_S1536x512_S512x512_1_0_0_1_n_n_wf
def dot_S512x512_S512x512_S512x512_1_0_0_1_n_n : DotDims S512x512 S512x512 S512x512 where
  lhsContracting := [1]
  rhsContracting := [0]
  lhsNonContracting := [0]
  rhsNonContracting := [1]
  lhsBatch := []
  rhsBatch := []
  wf := dot_S512x512_S512x512_S512x512_1_0_0_1_n_n_wf
def dot_S512x512_S512x6_S512x6_1_0_0_1_n_n : DotDims S512x512 S512x6 S512x6 where
  lhsContracting := [1]
  rhsContracting := [0]
  lhsNonContracting := [0]
  rhsNonContracting := [1]
  lhsBatch := []
  rhsBatch := []
  wf := dot_S512x512_S512x6_S512x6_1_0_0_1_n_n_wf

abbrev win0_0 : Pipeline.Window sig grid0 :=
  Pipeline.Window.ofSpec (Memref.whole main_arg0) S512x1536.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S1536x1536.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v11) S1x1536.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v6) S1536x1536.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v7) S1536x1536.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v12) S1x1536.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v8) S1536x512.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v13) S1x512.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v9) S512x512.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v14) S1x512.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v10) S512x6.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v15) S1x6.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_v16) S512x6.size cc0_transform_12 reads0_12 true false 2 stage0_12 sem0_12
    hrank0 hreads0_12 hinb0_12 nbuf0_12 (Memref.isWhole_whole _) hwx0_12 hstage0_12

abbrev win0 : Fin 13 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | ⟨_ + 13, h⟩ => absurd h (Nat.not_lt.2 (Nat.le_add_left _ _))
abbrev spec0 : Fin 13 → Pipeline.WinSpec sig grid0.rank := fun w => (win0 w).toWinSpec

class Facts : Prop extends Facts₀ where

variable [Facts]
-- ==== ReferenceIdeal.lean ====
abbrev S16384x1536 : Shape := ⟨2, ![16384, 1536]⟩
abbrev S1536x1536 : Shape := ⟨2, ![1536, 1536]⟩
abbrev S1536 : Shape := ⟨1, ![1536]⟩
abbrev S1536x3072 : Shape := ⟨2, ![1536, 3072]⟩
abbrev S3072x1536 : Shape := ⟨2, ![3072, 1536]⟩
abbrev S1536x512 : Shape := ⟨2, ![1536, 512]⟩
abbrev S512 : Shape := ⟨1, ![512]⟩
abbrev S512x512 : Shape := ⟨2, ![512, 512]⟩
abbrev S512x6 : Shape := ⟨2, ![512, 6]⟩
abbrev S6 : Shape := ⟨1, ![6]⟩
abbrev S1x1536 : Shape := ⟨2, ![1, 1536]⟩
abbrev S16384x3072 : Shape := ⟨2, ![16384, 3072]⟩
abbrev S16384x512 : Shape := ⟨2, ![16384, 512]⟩
abbrev S1x512 : Shape := ⟨2, ![1, 512]⟩
abbrev S_ : Shape := ⟨0, ![]⟩
abbrev S16384x6 : Shape := ⟨2, ![16384, 6]⟩
abbrev S1x6 : Shape := ⟨2, ![1, 6]⟩

abbrev nBuf : Space → Nat
  | .hbm => 47
  | .vmem => 0
  | .smem => 0
  | _ => 0

abbrev bufTy : (tb : Table) → Fin (tcTables nBuf tb) → BufTy
  | .hbm, ⟨0, _⟩ => ⟨S16384x1536, .f32⟩
  | .hbm, ⟨1, _⟩ => ⟨S1536x1536, .f32⟩
  | .hbm, ⟨2, _⟩ => ⟨S1536x1536, .f32⟩
  | .hbm, ⟨3, _⟩ => ⟨S1536, .f32⟩
  | .hbm, ⟨4, _⟩ => ⟨S1536x3072, .f32⟩
  | .hbm, ⟨5, _⟩ => ⟨S3072x1536, .f32⟩
  | .hbm, ⟨6, _⟩ => ⟨S1536, .f32⟩
  | .hbm, ⟨7, _⟩ => ⟨S1536x512, .f32⟩
  | .hbm, ⟨8, _⟩ => ⟨S512, .f32⟩
  | .hbm, ⟨9, _⟩ => ⟨S512x512, .f32⟩
  | .hbm, ⟨10, _⟩ => ⟨S512, .f32⟩
  | .hbm, ⟨11, _⟩ => ⟨S512x6, .f32⟩
  | .hbm, ⟨12, _⟩ => ⟨S6, .f32⟩
  | .hbm, ⟨13, _⟩ => ⟨S1536x1536, .f32⟩
  | .hbm, ⟨14, _⟩ => ⟨S1536x1536, .f32⟩
  | .hbm, ⟨15, _⟩ => ⟨S16384x1536, .f32⟩
  | .hbm, ⟨16, _⟩ => ⟨S1x1536, .f32⟩
  | .hbm, ⟨17, _⟩ => ⟨S16384x1536, .f32⟩
  | .hbm, ⟨18, _⟩ => ⟨S16384x1536, .f32⟩
  | .hbm, ⟨19, _⟩ => ⟨S16384x3072, .f32⟩
  | .hbm, ⟨20, _⟩ => ⟨S3072x1536, .f32⟩
  | .hbm, ⟨21, _⟩ => ⟨S3072x1536, .f32⟩
  | .hbm, ⟨22, _⟩ => ⟨S16384x1536, .f32⟩
  | .hbm, ⟨23, _⟩ => ⟨S1x1536, .f32⟩
  | .hbm, ⟨24, _⟩ => ⟨S16384x1536, .f32⟩
  | .hbm, ⟨25, _⟩ => ⟨S16384x1536, .f32⟩
  | .hbm, ⟨26, _⟩ => ⟨S16384x512, .f32⟩
  | .hbm, ⟨27, _⟩ => ⟨S1x512, .f32⟩
  | .hbm, ⟨28, _⟩ => ⟨S16384x512, .f32⟩
  | .hbm, ⟨29, _⟩ => ⟨S16384x512, .f32⟩
  | .hbm, ⟨30, _⟩ => ⟨S_, .f32⟩
  | .hbm, ⟨31, _⟩ => ⟨S16384x512, .f32⟩
  | .hbm, ⟨32, _⟩ => ⟨S16384x512, .f32⟩
  | .hbm, ⟨33, _⟩ => ⟨S16384x512, .f32⟩
  | .hbm, ⟨34, _⟩ => ⟨S1x512, .f32⟩
  | .hbm, ⟨35, _⟩ => ⟨S16384x512, .f32⟩
  | .hbm, ⟨36, _⟩ => ⟨S16384x512, .f32⟩
  | .hbm, ⟨37, _⟩ => ⟨S_, .f32⟩
  | .hbm, ⟨38, _⟩ => ⟨S16384x512, .f32⟩
  | .hbm, ⟨39, _⟩ => ⟨S16384x512, .f32⟩
  | .hbm, ⟨40, _⟩ => ⟨S16384x6, .f32⟩
  | .hbm, ⟨41, _⟩ => ⟨S1x6, .f32⟩
  | .hbm, ⟨42, _⟩ => ⟨S16384x6, .f32⟩
  | .hbm, ⟨43, _⟩ => ⟨S16384x6, .f32⟩
  | .hbm, ⟨44, _⟩ => ⟨S_, .f32⟩
  | .hbm, ⟨45, _⟩ => ⟨S16384x6, .f32⟩
  | .hbm, ⟨46, _⟩ => ⟨S16384x6, .f32⟩
  | _, _ => ⟨S16384x1536, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_call0_cst : Ref sig .tc := ⟨.hbm, 30, rfl⟩
abbrev main_call0_v0 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_call1_cst : Ref sig .tc := ⟨.hbm, 37, rfl⟩
abbrev main_call1_v0 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_call2_cst : Ref sig .tc := ⟨.hbm, 44, rfl⟩
abbrev main_call2_v0 : Ref sig .tc := ⟨.hbm, 45, rfl⟩
abbrev main_v27 : Ref sig .tc := ⟨.hbm, 46, rfl⟩

abbrev nD : Nat := 1
abbrev τ : Topo := Topo.v7x

variable {F : FTy → Type} [FloatOps F]

class Facts₀ : Prop where
  transposes_S1536x1536_S1536x1536_1_0 : S1536x1536.Transposes [1, 0] S1536x1536
  bcast_S1536_S1x1536_1 : S1536.BroadcastsInDim S1x1536 (![1] : Fin 1 → Fin S1x1536.rank)
  bcast_S1x1536_S16384x1536_0_1 : S1x1536.BroadcastsInDim S16384x1536 (![0, 1] : Fin 2 → Fin S16384x1536.rank)
  concatenates_S16384x1536_S16384x1536_S16384x3072_d1 : Shape.Concatenates [S16384x1536, S16384x1536] S16384x3072 1
  transposes_S1536x3072_S3072x1536_1_0 : S1536x3072.Transposes [1, 0] S3072x1536
  bcast_S512_S1x512_1 : S512.BroadcastsInDim S1x512 (![1] : Fin 1 → Fin S1x512.rank)
  bcast_S1x512_S16384x512_0_1 : S1x512.BroadcastsInDim S16384x512 (![0, 1] : Fin 2 → Fin S16384x512.rank)
  bcast_S_S16384x512 : S_.BroadcastsInDim S16384x512 (![] : Fin 0 → Fin S16384x512.rank)
  bcast_S6_S1x6_1 : S6.BroadcastsInDim S1x6 (![1] : Fin 1 → Fin S1x6.rank)
  bcast_S1x6_S16384x6_0_1 : S1x6.BroadcastsInDim S16384x6 (![0, 1] : Fin 2 → Fin S16384x6.rank)
  bcast_S_S16384x6 : S_.BroadcastsInDim S16384x6 (![] : Fin 0 → Fin S16384x6.rank)
  dot_S16384x1536_S1536x1536_S16384x1536_1_0_0_1_n_n_wf : DotDims.WF S16384x1536 S1536x1536 S16384x1536 [1] [0] [0] [1] [] []
  dot_S16384x3072_S3072x1536_S16384x1536_1_0_0_1_n_n_wf : DotDims.WF S16384x3072 S3072x1536 S16384x1536 [1] [0] [0] [1] [] []
  dot_S16384x1536_S1536x512_S16384x512_1_0_0_1_n_n_wf : DotDims.WF S16384x1536 S1536x512 S16384x512 [1] [0] [0] [1] [] []
  dot_S16384x512_S512x512_S16384x512_1_0_0_1_n_n_wf : DotDims.WF S16384x512 S512x512 S16384x512 [1] [0] [0] [1] [] []
  dot_S16384x512_S512x6_S16384x6_1_0_0_1_n_n_wf : DotDims.WF S16384x512 S512x6 S16384x6 [1] [0] [0] [1] [] []

variable [Facts₀]

def dot_S16384x1536_S1536x1536_S16384x1536_1_0_0_1_n_n : DotDims S16384x1536 S1536x1536 S16384x1536 where
  lhsContracting := [1]
  rhsContracting := [0]
  lhsNonContracting := [0]
  rhsNonContracting := [1]
  lhsBatch := []
  rhsBatch := []
  wf := dot_S16384x1536_S1536x1536_S16384x1536_1_0_0_1_n_n_wf
def dot_S16384x3072_S3072x1536_S16384x1536_1_0_0_1_n_n : DotDims S16384x3072 S3072x1536 S16384x1536 where
  lhsContracting := [1]
  rhsContracting := [0]
  lhsNonContracting := [0]
  rhsNonContracting := [1]
  lhsBatch := []
  rhsBatch := []
  wf := dot_S16384x3072_S3072x1536_S16384x1536_1_0_0_1_n_n_wf
def dot_S16384x1536_S1536x512_S16384x512_1_0_0_1_n_n : DotDims S16384x1536 S1536x512 S16384x512 where
  lhsContracting := [1]
  rhsContracting := [0]
  lhsNonContracting := [0]
  rhsNonContracting := [1]
  lhsBatch := []
  rhsBatch := []
  wf := dot_S16384x1536_S1536x512_S16384x512_1_0_0_1_n_n_wf
def dot_S16384x512_S512x512_S16384x512_1_0_0_1_n_n : DotDims S16384x512 S512x512 S16384x512 where
  lhsContracting := [1]
  rhsContracting := [0]
  lhsNonContracting := [0]
  rhsNonContracting := [1]
  lhsBatch := []
  rhsBatch := []
  wf := dot_S16384x512_S512x512_S16384x512_1_0_0_1_n_n_wf
def dot_S16384x512_S512x6_S16384x6_1_0_0_1_n_n : DotDims S16384x512 S512x6 S16384x6 where
  lhsContracting := [1]
  rhsContracting := [0]
  lhsNonContracting := [0]
  rhsNonContracting := [1]
  lhsBatch := []
  rhsBatch := []
  wf := dot_S16384x512_S512x6_S16384x6_1_0_0_1_n_n_wf

class Facts : Prop extends Facts₀ where

variable [Facts]
-- ==== Proof.Layers.lean ====
/-
  The network as a function of ONE input row.

  Every output row depends on the matching input row alone, so the whole computation is a function of a row
  `x : Fin 1536 → EReal` and the parameters:

    g  = x · (W₁ ∘ M₁ᵀ) + c₁                      (a masked affine layer, 1536 → 1536)
    p  = [x, g] · (W₂ ∘ M₂ᵀ) + c₂                 (a masked affine layer on the joined row, 3072 → 1536)
    out = relu (relu (relu (p · A + a) · B + b) · C + c)

  where `(W ∘ Mᵀ)[k,u] = W[k,u] · M[u,k]` and `relu v = max v 0`. One program contracts the joined row `[x, g]` against
  the whole 3072-row weight; the other contracts `x` against the first 1536 rows and `g` against the last 1536 rows
  and adds the two. The two are equal because a sum over 3072 terms is the sum of its first 1536 terms plus the sum
  of its last 1536 terms, which holds in every commutative additive monoid, so also on the extended reals with no
  finiteness needed.
-/
import Idealize.ShloMosaic.PureOps.Ideal
import Mathlib.Algebra.BigOperators.Fin

noncomputable section

namespace Cert.Layers

open scoped BigOperators

/-- An affine layer on a row: `v ↦ v · W + b`. -/
def affine {K U : Nat} (W : Fin K → Fin U → EReal) (b : Fin U → EReal) (v : Fin K → EReal) : Fin U → EReal :=
  fun u => (∑ k, v k * W k u) + b u

/-- The rectifier, entry by entry. -/
def relu {U : Nat} (v : Fin U → EReal) : Fin U → EReal := fun u => max (v u) 0

/-- Two rows of 1536 entries joined into one of 3072: the first row, then the second. -/
def join (a b : Fin 1536 → EReal) : Fin 3072 → EReal :=
  fun k => if h : k.val < 1536 then a ⟨k.val, h⟩ else b ⟨k.val - 1536, by have := k.isLt; omega⟩

theorem join_lo (a b : Fin 1536 → EReal) (k : Fin 1536) : join a b ⟨k.val, by have := k.isLt; omega⟩ = a k := by
  unfold join; rw [dif_pos (show (⟨k.val, _⟩ : Fin 3072).val < 1536 from k.isLt)]

theorem join_hi (a b : Fin 1536 → EReal) (k : Fin 1536) : join a b ⟨1536 + k.val, by have := k.isLt; omega⟩ = b k := by
  unfold join
  rw [dif_neg (show ¬ (⟨1536 + k.val, _⟩ : Fin 3072).val < 1536 from by show ¬ 1536 + k.val < 1536; omega)]
  exact congrArg b (Fin.ext (by show 1536 + k.val - 1536 = k.val; omega))

/-- A sum over 3072 terms is the sum of the first 1536 plus the sum of the last 1536. -/
theorem sum_halves (f : Fin 3072 → EReal) :
    ∑ k, f k = ∑ k : Fin 1536, f ⟨k.val, by have := k.isLt; omega⟩ + ∑ k : Fin 1536, f ⟨1536 + k.val, by have := k.isLt; omega⟩ :=
  Fin.sum_univ_add (a := 1536) (b := 1536) f

/-- The first 1536 rows and the last 1536 rows of a 3072-row weight. -/
def rowsLo {U : Nat} (W : Fin 3072 → Fin U → EReal) : Fin 1536 → Fin U → EReal :=
  fun k u => W ⟨k.val, by have := k.isLt; omega⟩ u
def rowsHi {U : Nat} (W : Fin 3072 → Fin U → EReal) : Fin 1536 → Fin U → EReal :=
  fun k u => W ⟨1536 + k.val, by have := k.isLt; omega⟩ u

/-- The contraction of a joined row against a 3072-row weight splits into the two halves' contractions. -/
theorem affine_join {U : Nat} (W : Fin 3072 → Fin U → EReal) (b : Fin U → EReal) (x g : Fin 1536 → EReal) (u : Fin U) :
    affine W b (join x g) u = ((∑ k, x k * rowsLo W k u) + ∑ k, g k * rowsHi W k u) + b u := by
  unfold affine
  rw [sum_halves]
  simp only [join_lo, join_hi, rowsLo, rowsHi]

/-- A weight masked by the transpose of a 0/1 matrix of the transposed shape (any entries, in fact). -/
def masked {K U : Nat} (W : Fin K → Fin U → EReal) (M : Fin U → Fin K → EReal) : Fin K → Fin U → EReal :=
  fun k u => W k u * M u k

/-- The three dense layers with their rectifiers, after the two masked layers. -/
def head (A : Fin 1536 → Fin 512 → EReal) (a : Fin 512 → EReal) (B : Fin 512 → Fin 512 → EReal) (b : Fin 512 → EReal)
    (C : Fin 512 → Fin 6 → EReal) (c : Fin 6 → EReal) (p : Fin 1536 → EReal) : Fin 6 → EReal :=
  relu (affine C c (relu (affine B b (relu (affine A a p)))))

/-- The network on one row, the second masked layer contracting the JOINED row against the whole weight. -/
def net (W₁ : Fin 1536 → Fin 1536 → EReal) (c₁ : Fin 1536 → EReal) (W₂ : Fin 3072 → Fin 1536 → EReal) (c₂ : Fin 1536 → EReal)
    (A : Fin 1536 → Fin 512 → EReal) (a : Fin 512 → EReal) (B : Fin 512 → Fin 512 → EReal) (b : Fin 512 → EReal)
    (C : Fin 512 → Fin 6 → EReal) (c : Fin 6 → EReal) (x : Fin 1536 → EReal) : Fin 6 → EReal :=
  head A a B b C c (affine W₂ c₂ (join x (affine W₁ c₁ x)))

/-- The network on one row, the second masked layer as TWO contractions, of the row and of the first layer's result,
    against the two halves of the weight. -/
def netSplit (W₁ : Fin 1536 → Fin 1536 → EReal) (c₁ : Fin 1536 → EReal) (Wx Wg : Fin 1536 → Fin 1536 → EReal) (c₂ : Fin 1536 → EReal)
    (A : Fin 1536 → Fin 512 → EReal) (a : Fin 512 → EReal) (B : Fin 512 → Fin 512 → EReal) (b : Fin 512 → EReal)
    (C : Fin 512 → Fin 6 → EReal) (c : Fin 6 → EReal) (x : Fin 1536 → EReal) : Fin 6 → EReal :=
  head A a B b C c (fun u => ((∑ k, x k * Wx k u) + ∑ k, affine W₁ c₁ x k * Wg k u) + c₂ u)

/-- The two are one function: the joined contraction is the sum of the halves' contractions. -/
theorem net_eq_netSplit (W₁ : Fin 1536 → Fin 1536 → EReal) (c₁ : Fin 1536 → EReal) (W₂ : Fin 3072 → Fin 1536 → EReal) (c₂ : Fin 1536 → EReal)
    (A : Fin 1536 → Fin 512 → EReal) (a : Fin 512 → EReal) (B : Fin 512 → Fin 512 → EReal) (b : Fin 512 → EReal)
    (C : Fin 512 → Fin 6 → EReal) (c : Fin 6 → EReal) (x : Fin 1536 → EReal) :
    net W₁ c₁ W₂ c₂ A a B b C c x = netSplit W₁ c₁ (rowsLo W₂) (rowsHi W₂) c₂ A a B b C c x := by
  unfold net netSplit
  exact congrArg (head A a B b C c) (funext fun u => affine_join W₂ c₂ x (affine W₁ c₁ x) u)

end Cert.Layers

end
-- ==== Proof.Spec.lean ====
/-
  The result array as ONE function of the thirteen argument arrays.

  Row `r` of the result is the network of Layers.lean applied to row `r` of the input `x`, with the two masked weights
  `W ∘ Mᵀ` formed entry by entry from a weight and the transpose of its mask. Matrices are read through their two
  coordinates and bias vectors through their one coordinate.
-/
import proofs.«161383_j25434796327649_1_alg».proof.Proof.Layers
import Idealize.ShloMosaic.Lib.ValueIdx

noncomputable section

namespace Cert.Spec

open Idealize.ShloMosaic Idealize.ShloMosaic.ValueIdx Cert.Layers

/-- An r×c array of extended reals, and an array of n of them. -/
abbrev Mat (r c : Nat) : Type := (⟨2, ![r, c]⟩ : Shape).Idx → EReal
abbrev Arr (n : Nat) : Type := (⟨1, ![n]⟩ : Shape).Idx → EReal

/-- A matrix by row and column; an array by position. -/
def mat {r c : Nat} (X : Mat r c) : Fin r → Fin c → EReal := fun a b => X (ix2 a b)
def arr {n : Nat} (v : Arr n) : Fin n → EReal := fun a => v (ix1 a)

/-- The result: row `i 0`, column `i 1`. Arguments in the programs' order: the input, then for each masked layer its
    mask, weight and bias, then the three dense layers' weights and biases. -/
def G (x : Mat 16384 1536) (m₁ : Mat 1536 1536) (w₁ : Mat 1536 1536) (c₁ : Arr 1536)
    (m₂ : Mat 1536 3072) (w₂ : Mat 3072 1536) (c₂ : Arr 1536)
    (A : Mat 1536 512) (a : Arr 512) (B : Mat 512 512) (b : Arr 512) (C : Mat 512 6) (c : Arr 6) : Mat 16384 6 :=
  fun i => net (masked (mat w₁) (mat m₁)) (arr c₁) (masked (mat w₂) (mat m₂)) (arr c₂)
    (mat A) (arr a) (mat B) (arr b) (mat C) (arr c) (mat x (i 0)) (i 1)

end Cert.Spec

end
-- ==== Proof.LibPlainProduct.lean ====
/-
  A plain matrix product on the matrix unit, read at one entry.

  At the ideal values a `tpu.matmul` of an m×k matrix by a k×n matrix into the zero accumulator has, at row `a` and
  column `b`, the value `∑ c, A[a,c] · B[c,b]`: the accumulator adds `0`, and the contraction index of a plain product
  is its one coordinate `c`. This is the sum the host's `dot_general` of the same two matrices has at that entry, so the
  two products are equal entry by entry.
-/
import Idealize.ShloMosaic.Lib.StackMember
import Idealize.ShloMosaic.PureOps.Ideal.Laws
import Idealize.ShloMosaic.Lib.ValueIdx

namespace Cert.PlainProduct

open Idealize.ShloMosaic Idealize.ShloMosaic.ValueIdx

/-- A plain m×k by k×n `tpu.matmul` into the zero splat is, at entry (a, b), the sum over the contracted coordinate
    of the products of the entries. At the ideal values. -/
theorem matmul_plain_zero_apply {m k n : Nat} {φ₁ φ₂ : FTy} (prec : Option ContractPrecision)
    (A : FVec Ideal ⟨2, ![m, k]⟩ φ₁) (B : FVec Ideal ⟨2, ![k, n]⟩ φ₂) (a : Fin m) (b : Fin n) :
    matmul (DotDims.plain m k n) prec A B (constant ⟨2, ![m, n]⟩ .f32 0x00000000#32) (ix2 a b)
      = ∑ c : Fin k, A (ix2 a c) * B (ix2 c b) := by
  rw [← StackMember.dotGeneral_plain_apply prec A B a b]
  show FloatOps.matmul _ prec A B _ _ = FloatOps.dotGeneral _ prec _ A B _
  rw [Ideal.matmul_constant_zero_apply, Ideal.dotGeneral_apply]

/-- The host's plain product at entry (a, b): the same sum (the library's reading, restated beside the kernel's). -/
theorem dotGeneral_plain_apply {m k n : Nat} {φ₁ φ₂ : FTy} (prec : Option ContractPrecision)
    (A : FVec Ideal ⟨2, ![m, k]⟩ φ₁) (B : FVec Ideal ⟨2, ![k, n]⟩ φ₂) (a : Fin m) (b : Fin n) :
    Host.dotGeneral (DotDims.plain m k n) prec A B (ix2 a b) = ∑ c : Fin k, A (ix2 a c) * B (ix2 c b) :=
  StackMember.dotGeneral_plain_apply prec A B a b

end Cert.PlainProduct
-- ==== Proof.RefValue.lean ====
/-
  The reference computes the specification, row by row.

  Reading the reference's operations one at a time at row `r`: the first masked product and its bias are the first
  affine layer of the row; the concatenation along the feature axis is the joined row; the second masked product over
  3072 features and its bias are the second affine layer of the joined row; each of the three dense products with its
  bias and its maximum against the zero splat is an affine layer followed by the rectifier. Each `dot_general` is a plain
  rows-by-columns product, so at an entry it is the sum over the contracted coordinate of the products of entries; a
  transposed mask read at (k, u) is the mask at (u, k); a bias broadcast to every row read at (r, u) is the bias at u.
-/
import proofs.«161383_j25434796327649_1_alg».proof.Proof.Gen.ReferenceIdeal.Read
import proofs.«161383_j25434796327649_1_alg».proof.Proof.Spec
import proofs.«161383_j25434796327649_1_alg».proof.Proof.LibPlainProduct

noncomputable section

namespace Cert.RefValue

open Cert.ReferenceIdeal Cert.ReferenceIdeal.Read Idealize.ShloMosaic Idealize.ShloMosaic.ValueIdx Cert.Layers Cert.Spec
open scoped BigOperators

local macro "coords2" : tactic => `(tactic| (funext a; match a with | ⟨0, _⟩ => rfl | ⟨1, _⟩ => rfl))
local macro "coords1" : tactic => `(tactic| (funext a; match a with | ⟨0, _⟩ => rfl))

variable (x0 : Mat 16384 1536) (x1 x2 : Mat 1536 1536) (x3 : Arr 1536) (x4 : Mat 1536 3072) (x5 : Mat 3072 1536)
  (x6 : Arr 1536) (x7 : Mat 1536 512) (x8 : Arr 512) (x9 : Mat 512 512) (x10 : Arr 512) (x11 : Mat 512 6) (x12 : Arr 6)

/-! ## The rows after each layer -/

/-- Row `r` after the first masked layer, after the second, and after each dense layer. -/
def row1 (r : Fin 16384) : Fin 1536 → EReal := affine (masked (mat x2) (mat x1)) (arr x3) (mat x0 r)
def row2 (r : Fin 16384) : Fin 1536 → EReal :=
  affine (masked (mat x5) (mat x4)) (arr x6) (join (mat x0 r) (row1 x0 x1 x2 x3 r))
def row3 (r : Fin 16384) : Fin 512 → EReal := relu (affine (mat x7) (arr x8) (row2 x0 x1 x2 x3 x4 x5 x6 r))
def row4 (r : Fin 16384) : Fin 512 → EReal := relu (affine (mat x9) (arr x10) (row3 x0 x1 x2 x3 x4 x5 x6 x7 x8 r))
def row5 (r : Fin 16384) : Fin 6 → EReal := relu (affine (mat x11) (arr x12) (row4 x0 x1 x2 x3 x4 x5 x6 x7 x8 x9 x10 r))

/-- The specification at (r, q) is the last row at q. -/
theorem G_apply (r : Fin 16384) (q : Fin 6) :
    G x0 x1 x2 x3 x4 x5 x6 x7 x8 x9 x10 x11 x12 (ix2 r q) = row5 x0 x1 x2 x3 x4 x5 x6 x7 x8 x9 x10 x11 x12 r q := rfl

/-! ## Transposed masks, broadcast biases, the zero splat -/

theorem mask1_apply (k u : Fin 1536) : val_main_v0 (F := Ideal) x1 (ix2 k u) = x1 (ix2 u k) := by
  rw [val_main_v0_apply]; exact congrArg x1 (by coords2)
theorem mask2_apply (k : Fin 3072) (u : Fin 1536) : val_main_v7 (F := Ideal) x4 (ix2 k u) = x4 (ix2 u k) := by
  rw [val_main_v7_apply]; exact congrArg x4 (by coords2)

theorem bias1_apply (r : Fin 16384) (u : Fin 1536) : val_main_v4 (F := Ideal) x3 (ix2 r u) = x3 (ix1 u) := by
  rw [val_main_v4_apply, val_main_v3_apply]; exact congrArg x3 (by coords1)
theorem bias2_apply (r : Fin 16384) (u : Fin 1536) : val_main_v11 (F := Ideal) x6 (ix2 r u) = x6 (ix1 u) := by
  rw [val_main_v11_apply, val_main_v10_apply]; exact congrArg x6 (by coords1)
theorem bias3_apply (r : Fin 16384) (u : Fin 512) : val_main_v15 (F := Ideal) x8 (ix2 r u) = x8 (ix1 u) := by
  rw [val_main_v15_apply, val_main_v14_apply]; exact congrArg x8 (by coords1)
theorem bias4_apply (r : Fin 16384) (u : Fin 512) : val_main_v20 (F := Ideal) x10 (ix2 r u) = x10 (ix1 u) := by
  rw [val_main_v20_apply, val_main_v19_apply]; exact congrArg x10 (by coords1)
theorem bias5_apply (r : Fin 16384) (u : Fin 6) : val_main_v25 (F := Ideal) x12 (ix2 r u) = x12 (ix1 u) := by
  rw [val_main_v25_apply, val_main_v24_apply]; exact congrArg x12 (by coords1)

theorem zero0_apply (i : S16384x512.Idx) : val_main_call0_v0 (F := Ideal) i = 0 := by
  rw [val_main_call0_v0_apply, val_main_call0_cst_apply, Ideal.ofBits_def, Ideal.ofBits_zero_f32]
theorem zero1_apply (i : S16384x512.Idx) : val_main_call1_v0 (F := Ideal) i = 0 := by
  rw [val_main_call1_v0_apply, val_main_call1_cst_apply, Ideal.ofBits_def, Ideal.ofBits_zero_f32]
theorem zero2_apply (i : S16384x6.Idx) : val_main_call2_v0 (F := Ideal) i = 0 := by
  rw [val_main_call2_v0_apply, val_main_call2_cst_apply, Ideal.ofBits_def, Ideal.ofBits_zero_f32]

/-! ## The first masked layer -/

theorem layer1 (r : Fin 16384) (u : Fin 1536) :
    val_main_v5 (F := Ideal) x0 x1 x2 x3 (ix2 r u) = row1 x0 x1 x2 x3 r u := by
  show Host.dotGeneral (F := Ideal) (DotDims.plain 16384 1536 1536) none x0 (val_main_v1 (F := Ideal) x1 x2) (ix2 r u)
      + val_main_v4 (F := Ideal) x3 (ix2 r u) = _
  rw [PlainProduct.dotGeneral_plain_apply, bias1_apply]
  refine congrArg (· + x3 (ix1 u)) (Finset.sum_congr rfl fun c _ => ?_)
  show x0 (ix2 r c) * (x2 (ix2 c u) * val_main_v0 (F := Ideal) x1 (ix2 c u)) = _
  rw [mask1_apply]; rfl

/-! ## The joined row -/

theorem joined (r : Fin 16384) (k : Fin 3072) :
    val_main_v6 (F := Ideal) x0 x1 x2 x3 (ix2 r k) = join (mat x0 r) (row1 x0 x1 x2 x3 r) k := by
  unfold val_main_v6 join
  by_cases h : k.val < 1536
  · rw [dif_pos h]
    exact concatenate_pair_apply_left (1 : Fin 2) x0 _ _ (ix2 r k) rfl
      (ix2 r ⟨k.val, h⟩) (fun b => match b with | ⟨0, _⟩ => rfl | ⟨1, _⟩ => rfl)
  · rw [dif_neg h, ← layer1 x0 x1 x2 x3 r]
    exact concatenate_pair_apply_right (1 : Fin 2) x0 (val_main_v5 (F := Ideal) x0 x1 x2 x3) _ (ix2 r k) rfl rfl
      (ix2 r (⟨k.val - 1536, by have := k.isLt; omega⟩ : Fin 1536))
      (fun b hb => match b, hb with | ⟨0, _⟩, _ => rfl | ⟨1, _⟩, hb => absurd rfl hb)
      (by show k.val - 1536 + 1536 = k.val; omega)

/-! ## The second masked layer -/

theorem layer2 (r : Fin 16384) (u : Fin 1536) :
    val_main_v12 (F := Ideal) x0 x1 x2 x3 x4 x5 x6 (ix2 r u) = row2 x0 x1 x2 x3 x4 x5 x6 r u := by
  show Host.dotGeneral (F := Ideal) (DotDims.plain 16384 3072 1536) none (val_main_v6 (F := Ideal) x0 x1 x2 x3) (val_main_v8 (F := Ideal) x4 x5) (ix2 r u)
      + val_main_v11 (F := Ideal) x6 (ix2 r u) = _
  rw [PlainProduct.dotGeneral_plain_apply, bias2_apply]
  refine congrArg (· + x6 (ix1 u)) (Finset.sum_congr rfl fun c _ => ?_)
  show val_main_v6 (F := Ideal) x0 x1 x2 x3 (ix2 r c) * (x5 (ix2 c u) * val_main_v7 (F := Ideal) x4 (ix2 c u)) = _
  rw [joined, mask2_apply]; rfl

/-! ## The dense layers -/

theorem layer3 (r : Fin 16384) (j : Fin 512) :
    val_main_v17 (F := Ideal) x0 x1 x2 x3 x4 x5 x6 x7 x8 (ix2 r j) = row3 x0 x1 x2 x3 x4 x5 x6 x7 x8 r j := by
  show max (Host.dotGeneral (F := Ideal) (DotDims.plain 16384 1536 512) none (val_main_v12 (F := Ideal) x0 x1 x2 x3 x4 x5 x6) x7 (ix2 r j)
      + val_main_v15 (F := Ideal) x8 (ix2 r j)) (val_main_call0_v0 (F := Ideal) (ix2 r j)) = _
  rw [PlainProduct.dotGeneral_plain_apply, bias3_apply, zero0_apply]
  refine congrArg (fun s => max (s + x8 (ix1 j)) 0) (Finset.sum_congr rfl fun c _ => ?_)
  rw [layer2]; rfl

theorem layer4 (r : Fin 16384) (j : Fin 512) :
    val_main_v22 (F := Ideal) x0 x1 x2 x3 x4 x5 x6 x7 x8 x9 x10 (ix2 r j) = row4 x0 x1 x2 x3 x4 x5 x6 x7 x8 x9 x10 r j := by
  show max (Host.dotGeneral (F := Ideal) (DotDims.plain 16384 512 512) none (val_main_v17 (F := Ideal) x0 x1 x2 x3 x4 x5 x6 x7 x8) x9 (ix2 r j)
      + val_main_v20 (F := Ideal) x10 (ix2 r j)) (val_main_call1_v0 (F := Ideal) (ix2 r j)) = _
  rw [PlainProduct.dotGeneral_plain_apply, bias4_apply, zero1_apply]
  refine congrArg (fun s => max (s + x10 (ix1 j)) 0) (Finset.sum_congr rfl fun c _ => ?_)
  rw [layer3]; rfl

theorem layer5 (r : Fin 16384) (q : Fin 6) :
    val_main_v27 (F := Ideal) x0 x1 x2 x3 x4 x5 x6 x7 x8 x9 x10 x11 x12 (ix2 r q)
      = row5 x0 x1 x2 x3 x4 x5 x6 x7 x8 x9 x10 x11 x12 r q := by
  show max (Host.dotGeneral (F := Ideal) (DotDims.plain 16384 512 6) none (val_main_v22 (F := Ideal) x0 x1 x2 x3 x4 x5 x6 x7 x8 x9 x10) x11 (ix2 r q)
      + val_main_v25 (F := Ideal) x12 (ix2 r q)) (val_main_call2_v0 (F := Ideal) (ix2 r q)) = _
  rw [PlainProduct.dotGeneral_plain_apply, bias5_apply, zero2_apply]
  refine congrArg (fun s => max (s + x12 (ix1 q)) 0) (Finset.sum_congr rfl fun c _ => ?_)
  rw [layer4]; rfl

/-- The reference's result is the specification of its arguments. -/
theorem reference_eq :
    val_main_v27 (F := Ideal) x0 x1 x2 x3 x4 x5 x6 x7 x8 x9 x10 x11 x12 = G x0 x1 x2 x3 x4 x5 x6 x7 x8 x9 x10 x11 x12 := by
  funext i
  obtain ⟨r, q, rfl⟩ : ∃ (r : Fin 16384) (q : Fin 6), i = ix2 r q := ⟨i 0, i 1, eq_ix2 i⟩
  rw [layer5, G_apply]

end Cert.RefValue

end
-- ==== Proof.KernelValue.lean ====
/-
  The kernel body computes the network in its split form, row by row of a block.

  The body's one store writes, at row `p` and column `q` of the 512-row block, a value that depends on row `p` of the
  loaded input block alone: each `tpu.matmul` is a plain rows-by-columns product into the zero accumulator, so at an
  entry it is the sum over the contracted coordinate of the products of entries; a one-row bias broadcast over the
  rows reads its one row; a change of float format is the identity on the extended reals; a maximum against the zero
  splat is the rectifier. The second masked layer appears as the sum of two products, of the input row against one
  weight and of the first layer's row against another: the split form of Layers.lean.
-/
import proofs.«161383_j25434796327649_1_alg».proof.Proof.Gen.KernelIdeal.Skeleton
import proofs.«161383_j25434796327649_1_alg».proof.Proof.Spec
import proofs.«161383_j25434796327649_1_alg».proof.Proof.LibPlainProduct
import Idealize.ShloMosaic.Lib.Pipeline.Value
import Idealize.ShloMosaic.Lib.ValueLayout

noncomputable section

namespace Cert.KernelValue

open Cert.KernelIdeal Cert.KernelIdeal.Gen Idealize.ShloMosaic Idealize.ShloMosaic.ValueIdx Cert.Layers Cert.Spec
open scoped BigOperators

/-- A one-row matrix as a row. -/
def only {n : Nat} (v : Mat 1 n) : Fin n → EReal := fun u => v (ix2 (0 : Fin 1) u)

/-! ## The four products of the body, each at an entry -/

theorem product_1536_1536 {φ₁ φ₂ : FTy} (L : FVec Ideal S512x1536 φ₁) (R : FVec Ideal S1536x1536 φ₂) (p : Fin 512) (u : Fin 1536) :
    matmul dot_S512x1536_S1536x1536_S512x1536_1_0_0_1_n_n none L R (constant S512x1536 .f32 0x00000000#32) (ix2 p u)
      = ∑ c : Fin 1536, L (ix2 p c) * R (ix2 c u) :=
  PlainProduct.matmul_plain_zero_apply none L R p u

theorem product_1536_512 {φ₁ φ₂ : FTy} (L : FVec Ideal S512x1536 φ₁) (R : FVec Ideal S1536x512 φ₂) (p : Fin 512) (u : Fin 512) :
    matmul dot_S512x1536_S1536x512_S512x512_1_0_0_1_n_n none L R (constant S512x512 .f32 0x00000000#32) (ix2 p u)
      = ∑ c : Fin 1536, L (ix2 p c) * R (ix2 c u) :=
  PlainProduct.matmul_plain_zero_apply none L R p u

theorem product_512_512 {φ₁ φ₂ : FTy} (L : FVec Ideal S512x512 φ₁) (R : FVec Ideal S512x512 φ₂) (p : Fin 512) (u : Fin 512) :
    matmul dot_S512x512_S512x512_S512x512_1_0_0_1_n_n none L R (constant S512x512 .f32 0x00000000#32) (ix2 p u)
      = ∑ c : Fin 512, L (ix2 p c) * R (ix2 c u) :=
  PlainProduct.matmul_plain_zero_apply none L R p u

theorem product_512_6 {φ₁ φ₂ : FTy} (L : FVec Ideal S512x512 φ₁) (R : FVec Ideal S512x6 φ₂) (p : Fin 512) (u : Fin 6) :
    matmul dot_S512x512_S512x6_S512x6_1_0_0_1_n_n none L R (constant S512x6 .f32 0x00000000#32) (ix2 p u)
      = ∑ c : Fin 512, L (ix2 p c) * R (ix2 c u) :=
  PlainProduct.matmul_plain_zero_apply none L R p u

/-- The scalar zero the rectifiers compare against is the extended real 0. -/
theorem scalar_zero : Scalar.ofBits (F := Ideal) .f32 0x00000000#32 = (0 : EReal) := Ideal.ofBits_zero_f32

/-! ## The body's stored value at an entry -/

variable (x0 : Vec Ideal S512x1536 .f32) (x1 : Vec Ideal S1536x1536 .bf16) (x2 : Vec Ideal S1x1536 .f32)
  (x3 x4 : Vec Ideal S1536x1536 .bf16) (x5 : Vec Ideal S1x1536 .f32) (x6 : Vec Ideal S1536x512 .bf16) (x7 : Vec Ideal S1x512 .f32)
  (x8 : Vec Ideal S512x512 .bf16) (x9 : Vec Ideal S1x512 .f32) (x10 : Vec Ideal S512x6 .bf16) (x11 : Vec Ideal S1x6 .f32)

/-- Row `p`, column `q` of the block the body stores is the split-form network of row `p` of the input block. -/
theorem stored_apply (p : Fin 512) (q : Fin 6) :
    k0_pay1 (k0_pay2 x0 x1 x2 x3 x4 x5 x6 x7 x8) x9 x10 x11 (ix2 p q)
      = netSplit (mat x1) (only x2) (mat x3) (mat x4) (only x5) (mat x6) (only x7) (mat x8) (only x9) (mat x10) (only x11)
          (mat x0 p) q := by
  unfold k0_pay1 k0_pay2
  simp only [maximumf_apply, addf_apply, truncf_apply, broadcast_apply, shapeCast_self, broadcastTo_1b_ab_apply,
    product_1536_1536, product_1536_512, product_512_512, product_512_6, scalar_zero]
  rfl

end Cert.KernelValue

end
-- ==== Proof.KernelEntry.lean ====
/-
  What the region finds in each window's array, read at an entry.

  The input as launched; the first masked weight `W₁[k,u] · M₁[u,k]` (a product with a transposed mask; the change of
  float format is the identity on the extended reals); the first and the last 1536 rows of the second masked weight
  (two slices of one masked product); the three dense weights as launched; each bias as a one-row matrix (a reshape
  that adds a unit axis reads, in its one row, the bias).
-/
import proofs.«161383_j25434796327649_1_alg».proof.Proof.Gen.KernelIdeal.Frame
import proofs.«161383_j25434796327649_1_alg».proof.Proof.Spec
import Idealize.ShloMosaic.Lib.Pipeline.Value
import Idealize.ShloMosaic.Lib.StableHlo.Run
import Idealize.ShloMosaic.PureOps.Ideal

set_option maxRecDepth 16384

noncomputable section

namespace Cert.KernelEntry

open Cert.KernelIdeal Cert.KernelIdeal.Gen Idealize.ShloMosaic Idealize.ShloMosaic.TcCoe Idealize.SL.Sem Idealize.ShloMosaic.StableHlo
open Idealize.ShloMosaic.ValueIdx Cert.Layers Cert.Spec
open scoped BigOperators

variable (m : (ℓ : Loc nD τ sig) → Buf (Elt Ideal) ℓ)

/-! ## The thirteen argument arrays on core `c`: the input; mask, weight and bias of each masked layer; weight and bias of each dense layer -/

abbrev a0 (c : Dev nD) : Mat 16384 1536 := m ((c : Thread nD τ).loc main_arg0)
abbrev a1 (c : Dev nD) : Mat 1536 1536 := m ((c : Thread nD τ).loc main_arg1)
abbrev a2 (c : Dev nD) : Mat 1536 1536 := m ((c : Thread nD τ).loc main_arg2)
abbrev a3 (c : Dev nD) : Arr 1536 := m ((c : Thread nD τ).loc main_arg3)
abbrev a4 (c : Dev nD) : Mat 1536 3072 := m ((c : Thread nD τ).loc main_arg4)
abbrev a5 (c : Dev nD) : Mat 3072 1536 := m ((c : Thread nD τ).loc main_arg5)
abbrev a6 (c : Dev nD) : Arr 1536 := m ((c : Thread nD τ).loc main_arg6)
abbrev a7 (c : Dev nD) : Mat 1536 512 := m ((c : Thread nD τ).loc main_arg7)
abbrev a8 (c : Dev nD) : Arr 512 := m ((c : Thread nD τ).loc main_arg8)
abbrev a9 (c : Dev nD) : Mat 512 512 := m ((c : Thread nD τ).loc main_arg9)
abbrev a10 (c : Dev nD) : Arr 512 := m ((c : Thread nD τ).loc main_arg10)
abbrev a11 (c : Dev nD) : Mat 512 6 := m ((c : Thread nD τ).loc main_arg11)
abbrev a12 (c : Dev nD) : Arr 6 := m ((c : Thread nD τ).loc main_arg12)

/-- The specification of the argument arrays on core `c`. -/
abbrev spec (c : Dev nD) : Mat 16384 6 :=
  G (a0 m c) (a1 m c) (a2 m c) (a3 m c) (a4 m c) (a5 m c) (a6 m c) (a7 m c) (a8 m c) (a9 m c) (a10 m c) (a11 m c) (a12 m c)

/-! ## The input and the masked weights -/

theorem entry_input (c : Dev nD) : (V m c main_arg0 : Mat 16384 1536) = a0 m c := V_main_arg0 m c

/-- The first masked weight. -/
theorem entry_masked1 (c : Dev nD) (k u : Fin 1536) :
    (V m c main_v2 : Mat 1536 1536) (ix2 k u) = masked (mat (a2 m c)) (mat (a1 m c)) k u := by
  have e : (V m c main_v2 : Mat 1536 1536) = truncf (F := Ideal) .bf16 (mulf (F := Ideal) (φ := .f32) (a2 m c)
      (transpose S1536x1536 [1, 0] (a1 m c) transposes_S1536x1536_S1536x1536_1_0)) bitsLt_bf16_f32 := by
    dsimp only [Gen.V, Gen.hostOps0]; after_results <;> rfl
  rw [e]
  show a2 m c (ix2 k u) * transpose S1536x1536 [1, 0] (a1 m c) transposes_S1536x1536_S1536x1536_1_0 (ix2 k u) = _
  rw [transpose_apply [1, 0] (a1 m c) transposes_S1536x1536_S1536x1536_1_0 (ix2 k u) (ix2 u k)
    (fun b => match b with | ⟨0, _⟩ => rfl | ⟨1, _⟩ => rfl)]
  rfl

/-- The second masked weight, whole, at an entry (before it is sliced). -/
theorem masked2_apply (c : Dev nD) (k : Fin 3072) (u : Fin 1536) :
    truncf (F := Ideal) .bf16 (mulf (F := Ideal) (φ := .f32) (a5 m c)
      (transpose S3072x1536 [1, 0] (a4 m c) transposes_S1536x3072_S3072x1536_1_0)) bitsLt_bf16_f32 (ix2 k u)
      = masked (mat (a5 m c)) (mat (a4 m c)) k u := by
  show a5 m c (ix2 k u) * transpose S3072x1536 [1, 0] (a4 m c) transposes_S1536x3072_S3072x1536_1_0 (ix2 k u) = _
  rw [transpose_apply [1, 0] (a4 m c) transposes_S1536x3072_S3072x1536_1_0 (ix2 k u) (ix2 u k)
    (fun b => match b with | ⟨0, _⟩ => rfl | ⟨1, _⟩ => rfl)]
  rfl

/-- Its first 1536 rows. -/
theorem entry_masked2_lo (c : Dev nD) (k u : Fin 1536) :
    (V m c main_v6 : Mat 1536 1536) (ix2 k u) = rowsLo (masked (mat (a5 m c)) (mat (a4 m c))) k u := by
  have e : (V m c main_v6 : Mat 1536 1536) = extractStridedSlice S1536x1536 ![0, 0] (truncf (F := Ideal) .bf16 (mulf (F := Ideal) (φ := .f32) (a5 m c)
      (transpose S3072x1536 [1, 0] (a4 m c) transposes_S1536x3072_S3072x1536_1_0)) bitsLt_bf16_f32) slices_S3072x1536_S1536x1536_0_0 := by
    dsimp only [Gen.V, Gen.hostOps0]; after_results <;> rfl
  rw [e, extractStridedSlice_apply ![0, 0] _ slices_S3072x1536_S1536x1536_0_0 (ix2 k u)
    (ix2 (⟨k.val, by have := k.isLt; omega⟩ : Fin 3072) u)
    (fun a => match a with
      | ⟨0, _⟩ => by show k.val = 0 + k.val; omega
      | ⟨1, _⟩ => by show u.val = 0 + u.val; omega)]
  exact masked2_apply m c _ u

/-- Its last 1536 rows. -/
theorem entry_masked2_hi (c : Dev nD) (k u : Fin 1536) :
    (V m c main_v7 : Mat 1536 1536) (ix2 k u) = rowsHi (masked (mat (a5 m c)) (mat (a4 m c))) k u := by
  have e : (V m c main_v7 : Mat 1536 1536) = extractStridedSlice S1536x1536 ![1536, 0] (truncf (F := Ideal) .bf16 (mulf (F := Ideal) (φ := .f32) (a5 m c)
      (transpose S3072x1536 [1, 0] (a4 m c) transposes_S1536x3072_S3072x1536_1_0)) bitsLt_bf16_f32) slices_S3072x1536_S1536x1536_1536_0 := by
    dsimp only [Gen.V, Gen.hostOps0]; after_results <;> rfl
  rw [e, extractStridedSlice_apply ![1536, 0] _ slices_S3072x1536_S1536x1536_1536_0 (ix2 k u)
    (ix2 (⟨1536 + k.val, by have := k.isLt; omega⟩ : Fin 3072) u)
    (fun a => match a with
      | ⟨0, _⟩ => rfl
      | ⟨1, _⟩ => by show u.val = 0 + u.val; omega)]
  exact masked2_apply m c _ u

/-! ## The dense weights: as launched (a change of float format is the identity) -/

theorem entry_dense1 (c : Dev nD) : (V m c main_v8 : Mat 1536 512) = a7 m c := by
  dsimp only [Gen.V, Gen.hostOps0]; after_results <;> rfl
theorem entry_dense2 (c : Dev nD) : (V m c main_v9 : Mat 512 512) = a9 m c := by
  dsimp only [Gen.V, Gen.hostOps0]; after_results <;> rfl
theorem entry_dense3 (c : Dev nD) : (V m c main_v10 : Mat 512 6) = a11 m c := by
  dsimp only [Gen.V, Gen.hostOps0]; after_results <;> rfl

/-! ## The biases, each reshaped to one row -/

/-- An array reshaped to a one-row matrix reads, in that row, the array. -/
theorem oneRow_apply {n : Nat} (v : Arr n) (h : (⟨1, ![n]⟩ : Shape).ShapeCasts ⟨2, ![1, n]⟩) (u : Fin n) :
    shapeCast ⟨2, ![1, n]⟩ v h (ix2 (0 : Fin 1) u) = v (ix1 u) := by
  rw [shapeCast_addUnit_apply ![n] v h (ix2 (0 : Fin 1) u)]
  exact congrArg v (funext fun a => match a with | ⟨0, _⟩ => rfl)

theorem entry_bias1 (c : Dev nD) (u : Fin 1536) : (V m c main_v11 : Mat 1 1536) (ix2 (0 : Fin 1) u) = a3 m c (ix1 u) := by
  have e : (V m c main_v11 : Mat 1 1536) = shapeCast S1x1536 (a3 m c) shapeCasts_S1536_S1x1536 := by
    dsimp only [Gen.V, Gen.hostOps0]; after_results <;> rfl
  rw [e]; exact oneRow_apply (a3 m c) _ u

theorem entry_bias2 (c : Dev nD) (u : Fin 1536) : (V m c main_v12 : Mat 1 1536) (ix2 (0 : Fin 1) u) = a6 m c (ix1 u) := by
  have e : (V m c main_v12 : Mat 1 1536) = shapeCast S1x1536 (a6 m c) shapeCasts_S1536_S1x1536 := by
    dsimp only [Gen.V, Gen.hostOps0]; after_results <;> rfl
  rw [e]; exact oneRow_apply (a6 m c) _ u

theorem entry_bias3 (c : Dev nD) (u : Fin 512) : (V m c main_v13 : Mat 1 512) (ix2 (0 : Fin 1) u) = a8 m c (ix1 u) := by
  have e : (V m c main_v13 : Mat 1 512) = shapeCast S1x512 (a8 m c) shapeCasts_S512_S1x512 := by
    dsimp only [Gen.V, Gen.hostOps0]; after_results <;> rfl
  rw [e]; exact oneRow_apply (a8 m c) _ u

theorem entry_bias4 (c : Dev nD) (u : Fin 512) : (V m c main_v14 : Mat 1 512) (ix2 (0 : Fin 1) u) = a10 m c (ix1 u) := by
  have e : (V m c main_v14 : Mat 1 512) = shapeCast S1x512 (a10 m c) shapeCasts_S512_S1x512 := by
    dsimp only [Gen.V, Gen.hostOps0]; after_results <;> rfl
  rw [e]; exact oneRow_apply (a10 m c) _ u

theorem entry_bias5 (c : Dev nD) (u : Fin 6) : (V m c main_v15 : Mat 1 6) (ix2 (0 : Fin 1) u) = a12 m c (ix1 u) := by
  have e : (V m c main_v15 : Mat 1 6) = shapeCast S1x6 (a12 m c) shapeCasts_S6_S1x6 := by
    dsimp only [Gen.V, Gen.hostOps0]; after_results <;> rfl
  rw [e]; exact oneRow_apply (a12 m c) _ u

end Cert.KernelEntry

end
-- ==== Proof.KernelRun.lean ====
/-
  The kernel's run ends with the specification in its result array.

  The grid has 32 points. Point `t` stages rows `512·t … 512·t + 511` of the input and of the result, and the whole of
  every other array (their block index is 0 on both axes at every point). So the block point `t` writes back is, at
  row `p` and column `q`, the split-form network of input row `512·t + p` over the arrays the region found, which is
  the specification at (512·t + p, q): the joined contraction is the sum of its two halves' contractions. Every row
  `r` of the result lies in the block of point `r / 512`, and every point writes back, so the blocks cover the array.
-/
import proofs.«161383_j25434796327649_1_alg».proof.Proof.Gen.KernelIdeal.Value
import proofs.«161383_j25434796327649_1_alg».proof.Proof.KernelValue
import proofs.«161383_j25434796327649_1_alg».proof.Proof.KernelEntry

set_option maxRecDepth 16384

noncomputable section

namespace Cert.KernelRun

open Cert.KernelIdeal Cert.KernelIdeal.Gen Idealize.ShloMosaic Idealize.ShloMosaic.TcCoe Idealize.SL.Sem
open Idealize.ShloMosaic.ValueIdx Cert.Layers Cert.Spec Cert.KernelValue Cert.KernelEntry
open Idealize.ShloMosaic.Pipeline (Dat)
open scoped BigOperators

variable (m : (ℓ : Loc nD τ sig) → Buf (Elt Ideal) ℓ) (ρ : Dev nD → PrngReg)

/-! ## The index maps over the grid -/

/-- The input's and the result's block index at point `t` is (t, 0). -/
theorem idx_input : ∀ t : Fin cfg0.N, win0_0.index t (0 : Fin 2) = t.val ∧ win0_0.index t (1 : Fin 2) = 0 :=
  (by decide +kernel : ∀ t : Fin grid0.N, win0_0.index t (0 : Fin 2) = t.val ∧ win0_0.index t (1 : Fin 2) = 0)
theorem idx_result : ∀ t : Fin cfg0.N, win0_12.index t (0 : Fin 2) = t.val ∧ win0_12.index t (1 : Fin 2) = 0 :=
  (by decide +kernel : ∀ t : Fin grid0.N, win0_12.index t (0 : Fin 2) = t.val ∧ win0_12.index t (1 : Fin 2) = 0)

/-- Every parameter's block index is (0, 0) at every point: the two masked layers' weights and biases, -/
theorem idx_masked1 : ∀ t : Fin cfg0.N, win0_1.index t (0 : Fin 2) = 0 ∧ win0_1.index t (1 : Fin 2) = 0 :=
  (by decide +kernel : ∀ t : Fin grid0.N, win0_1.index t (0 : Fin 2) = 0 ∧ win0_1.index t (1 : Fin 2) = 0)
theorem idx_bias1 : ∀ t : Fin cfg0.N, win0_2.index t (0 : Fin 2) = 0 ∧ win0_2.index t (1 : Fin 2) = 0 :=
  (by decide +kernel : ∀ t : Fin grid0.N, win0_2.index t (0 : Fin 2) = 0 ∧ win0_2.index t (1 : Fin 2) = 0)
theorem idx_masked2_lo : ∀ t : Fin cfg0.N, win0_3.index t (0 : Fin 2) = 0 ∧ win0_3.index t (1 : Fin 2) = 0 :=
  (by decide +kernel : ∀ t : Fin grid0.N, win0_3.index t (0 : Fin 2) = 0 ∧ win0_3.index t (1 : Fin 2) = 0)
theorem idx_masked2_hi : ∀ t : Fin cfg0.N, win0_4.index t (0 : Fin 2) = 0 ∧ win0_4.index t (1 : Fin 2) = 0 :=
  (by decide +kernel : ∀ t : Fin grid0.N, win0_4.index t (0 : Fin 2) = 0 ∧ win0_4.index t (1 : Fin 2) = 0)
theorem idx_bias2 : ∀ t : Fin cfg0.N, win0_5.index t (0 : Fin 2) = 0 ∧ win0_5.index t (1 : Fin 2) = 0 :=
  (by decide +kernel : ∀ t : Fin grid0.N, win0_5.index t (0 : Fin 2) = 0 ∧ win0_5.index t (1 : Fin 2) = 0)
/-- and the three dense layers' weights and biases. -/
theorem idx_dense1 : ∀ t : Fin cfg0.N, win0_6.index t (0 : Fin 2) = 0 ∧ win0_6.index t (1 : Fin 2) = 0 :=
  (by decide +kernel : ∀ t : Fin grid0.N, win0_6.index t (0 : Fin 2) = 0 ∧ win0_6.index t (1 : Fin 2) = 0)
theorem idx_bias3 : ∀ t : Fin cfg0.N, win0_7.index t (0 : Fin 2) = 0 ∧ win0_7.index t (1 : Fin 2) = 0 :=
  (by decide +kernel : ∀ t : Fin grid0.N, win0_7.index t (0 : Fin 2) = 0 ∧ win0_7.index t (1 : Fin 2) = 0)
theorem idx_dense2 : ∀ t : Fin cfg0.N, win0_8.index t (0 : Fin 2) = 0 ∧ win0_8.index t (1 : Fin 2) = 0 :=
  (by decide +kernel : ∀ t : Fin grid0.N, win0_8.index t (0 : Fin 2) = 0 ∧ win0_8.index t (1 : Fin 2) = 0)
theorem idx_bias4 : ∀ t : Fin cfg0.N, win0_9.index t (0 : Fin 2) = 0 ∧ win0_9.index t (1 : Fin 2) = 0 :=
  (by decide +kernel : ∀ t : Fin grid0.N, win0_9.index t (0 : Fin 2) = 0 ∧ win0_9.index t (1 : Fin 2) = 0)
theorem idx_dense3 : ∀ t : Fin cfg0.N, win0_10.index t (0 : Fin 2) = 0 ∧ win0_10.index t (1 : Fin 2) = 0 :=
  (by decide +kernel : ∀ t : Fin grid0.N, win0_10.index t (0 : Fin 2) = 0 ∧ win0_10.index t (1 : Fin 2) = 0)
theorem idx_bias5 : ∀ t : Fin cfg0.N, win0_11.index t (0 : Fin 2) = 0 ∧ win0_11.index t (1 : Fin 2) = 0 :=
  (by decide +kernel : ∀ t : Fin grid0.N, win0_11.index t (0 : Fin 2) = 0 ∧ win0_11.index t (1 : Fin 2) = 0)

/-- The grid has 32 points. -/
theorem points : cfg0.N = 32 := N_0

/-- Row `p` of point `t`'s block is row `512·t + p` of the array. -/
def rowOf (t : Fin cfg0.N) (p : Fin 512) : Fin 16384 :=
  ⟨512 * t.val + p.val, by have := t.isLt; have := points; have := p.isLt; omega⟩

/-! ## Each window's block at a point, read at an entry

An element of a block sits in the array, on each axis, at the block index times the block's size plus its own
coordinate. -/

/-- Row `p` of the input's block at `t` is row `512·t + p` of the input. -/
theorem block_input (c : Dev nD) (t : Fin cfg0.N) (p : Fin 512) :
    mat (r := 512) (c := 1536) (iblk m c 0 t) p = mat (a0 m c) (rowOf t p) := by
  funext k
  obtain ⟨e0, e1⟩ := idx_input t
  show V m c main_arg0 (((cfg0.win 0).blk t).view.emb (ix2 p k)) = a0 m c (ix2 (rowOf t p) k)
  have he : ((cfg0.win 0).blk t).view.emb (ix2 p k) = ix2 (rowOf t p) k := by
    funext a; apply Fin.ext
    match a with
    | ⟨0, _⟩ => show win0_0.index t (0 : Fin 2) * 512 + 1 * p.val = 512 * t.val + p.val; omega
    | ⟨1, _⟩ => show win0_0.index t (1 : Fin 2) * 1536 + 1 * k.val = k.val; omega
  rw [he, entry_input]

/-- The result's block at `t` likewise sits at rows `512·t …`. -/
theorem emb_result (t : Fin cfg0.N) (p : Fin 512) (q : Fin 6) :
    ((cfg0.win 12).blk t).view.emb (ix2 p q) = ix2 (rowOf t p) q := by
  obtain ⟨e0, e1⟩ := idx_result t
  funext a; apply Fin.ext
  match a with
  | ⟨0, _⟩ => show win0_12.index t (0 : Fin 2) * 512 + 1 * p.val = 512 * t.val + p.val; omega
  | ⟨1, _⟩ => show win0_12.index t (1 : Fin 2) * 6 + 1 * q.val = q.val; omega

theorem block_masked1 (c : Dev nD) (t : Fin cfg0.N) :
    mat (r := 1536) (c := 1536) (iblk m c 1 t) = masked (mat (a2 m c)) (mat (a1 m c)) := by
  funext k u
  obtain ⟨e0, e1⟩ := idx_masked1 t
  show V m c main_v2 (((cfg0.win 1).blk t).view.emb (ix2 k u)) = _
  have he : ((cfg0.win 1).blk t).view.emb (ix2 k u) = ix2 k u := by
    funext a; apply Fin.ext
    match a with
    | ⟨0, _⟩ => show win0_1.index t (0 : Fin 2) * 1536 + 1 * k.val = k.val; omega
    | ⟨1, _⟩ => show win0_1.index t (1 : Fin 2) * 1536 + 1 * u.val = u.val; omega
  rw [he]; exact entry_masked1 m c k u

theorem block_bias1 (c : Dev nD) (t : Fin cfg0.N) : only (n := 1536) (iblk m c 2 t) = arr (a3 m c) := by
  funext u
  obtain ⟨e0, e1⟩ := idx_bias1 t
  show V m c main_v11 (((cfg0.win 2).blk t).view.emb (ix2 (0 : Fin 1) u)) = _
  have he : ((cfg0.win 2).blk t).view.emb (ix2 (0 : Fin 1) u) = ix2 (0 : Fin 1) u := by
    funext a; apply Fin.ext
    match a with
    | ⟨0, _⟩ => show win0_2.index t (0 : Fin 2) * 1 + 1 * 0 = 0; omega
    | ⟨1, _⟩ => show win0_2.index t (1 : Fin 2) * 1536 + 1 * u.val = u.val; omega
  rw [he]; exact entry_bias1 m c u

theorem block_masked2_lo (c : Dev nD) (t : Fin cfg0.N) :
    mat (r := 1536) (c := 1536) (iblk m c 3 t) = rowsLo (masked (mat (a5 m c)) (mat (a4 m c))) := by
  funext k u
  obtain ⟨e0, e1⟩ := idx_masked2_lo t
  show V m c main_v6 (((cfg0.win 3).blk t).view.emb (ix2 k u)) = _
  have he : ((cfg0.win 3).blk t).view.emb (ix2 k u) = ix2 k u := by
    funext a; apply Fin.ext
    match a with
    | ⟨0, _⟩ => show win0_3.index t (0 : Fin 2) * 1536 + 1 * k.val = k.val; omega
    | ⟨1, _⟩ => show win0_3.index t (1 : Fin 2) * 1536 + 1 * u.val = u.val; omega
  rw [he]; exact entry_masked2_lo m c k u

theorem block_masked2_hi (c : Dev nD) (t : Fin cfg0.N) :
    mat (r := 1536) (c := 1536) (iblk m c 4 t) = rowsHi (masked (mat (a5 m c)) (mat (a4 m c))) := by
  funext k u
  obtain ⟨e0, e1⟩ := idx_masked2_hi t
  show V m c main_v7 (((cfg0.win 4).blk t).view.emb (ix2 k u)) = _
  have he : ((cfg0.win 4).blk t).view.emb (ix2 k u) = ix2 k u := by
    funext a; apply Fin.ext
    match a with
    | ⟨0, _⟩ => show win0_4.index t (0 : Fin 2) * 1536 + 1 * k.val = k.val; omega
    | ⟨1, _⟩ => show win0_4.index t (1 : Fin 2) * 1536 + 1 * u.val = u.val; omega
  rw [he]; exact entry_masked2_hi m c k u

theorem block_bias2 (c : Dev nD) (t : Fin cfg0.N) : only (n := 1536) (iblk m c 5 t) = arr (a6 m c) := by
  funext u
  obtain ⟨e0, e1⟩ := idx_bias2 t
  show V m c main_v12 (((cfg0.win 5).blk t).view.emb (ix2 (0 : Fin 1) u)) = _
  have he : ((cfg0.win 5).blk t).view.emb (ix2 (0 : Fin 1) u) = ix2 (0 : Fin 1) u := by
    funext a; apply Fin.ext
    match a with
    | ⟨0, _⟩ => show win0_5.index t (0 : Fin 2) * 1 + 1 * 0 = 0; omega
    | ⟨1, _⟩ => show win0_5.index t (1 : Fin 2) * 1536 + 1 * u.val = u.val; omega
  rw [he]; exact entry_bias2 m c u

theorem block_dense1 (c : Dev nD) (t : Fin cfg0.N) : mat (r := 1536) (c := 512) (iblk m c 6 t) = mat (a7 m c) := by
  funext k u
  obtain ⟨e0, e1⟩ := idx_dense1 t
  show V m c main_v8 (((cfg0.win 6).blk t).view.emb (ix2 k u)) = a7 m c (ix2 k u)
  have he : ((cfg0.win 6).blk t).view.emb (ix2 k u) = ix2 k u := by
    funext a; apply Fin.ext
    match a with
    | ⟨0, _⟩ => show win0_6.index t (0 : Fin 2) * 1536 + 1 * k.val = k.val; omega
    | ⟨1, _⟩ => show win0_6.index t (1 : Fin 2) * 512 + 1 * u.val = u.val; omega
  rw [he, entry_dense1]

theorem block_bias3 (c : Dev nD) (t : Fin cfg0.N) : only (n := 512) (iblk m c 7 t) = arr (a8 m c) := by
  funext u
  obtain ⟨e0, e1⟩ := idx_bias3 t
  show V m c main_v13 (((cfg0.win 7).blk t).view.emb (ix2 (0 : Fin 1) u)) = _
  have he : ((cfg0.win 7).blk t).view.emb (ix2 (0 : Fin 1) u) = ix2 (0 : Fin 1) u := by
    funext a; apply Fin.ext
    match a with
    | ⟨0, _⟩ => show win0_7.index t (0 : Fin 2) * 1 + 1 * 0 = 0; omega
    | ⟨1, _⟩ => show win0_7.index t (1 : Fin 2) * 512 + 1 * u.val = u.val; omega
  rw [he]; exact entry_bias3 m c u

theorem block_dense2 (c : Dev nD) (t : Fin cfg0.N) : mat (r := 512) (c := 512) (iblk m c 8 t) = mat (a9 m c) := by
  funext k u
  obtain ⟨e0, e1⟩ := idx_dense2 t
  show V m c main_v9 (((cfg0.win 8).blk t).view.emb (ix2 k u)) = a9 m c (ix2 k u)
  have he : ((cfg0.win 8).blk t).view.emb (ix2 k u) = ix2 k u := by
    funext a; apply Fin.ext
    match a with
    | ⟨0, _⟩ => show win0_8.index t (0 : Fin 2) * 512 + 1 * k.val = k.val; omega
    | ⟨1, _⟩ => show win0_8.index t (1 : Fin 2) * 512 + 1 * u.val = u.val; omega
  rw [he, entry_dense2]

theorem block_bias4 (c : Dev nD) (t : Fin cfg0.N) : only (n := 512) (iblk m c 9 t) = arr (a10 m c) := by
  funext u
  obtain ⟨e0, e1⟩ := idx_bias4 t
  show V m c main_v14 (((cfg0.win 9).blk t).view.emb (ix2 (0 : Fin 1) u)) = _
  have he : ((cfg0.win 9).blk t).view.emb (ix2 (0 : Fin 1) u) = ix2 (0 : Fin 1) u := by
    funext a; apply Fin.ext
    match a with
    | ⟨0, _⟩ => show win0_9.index t (0 : Fin 2) * 1 + 1 * 0 = 0; omega
    | ⟨1, _⟩ => show win0_9.index t (1 : Fin 2) * 512 + 1 * u.val = u.val; omega
  rw [he]; exact entry_bias4 m c u

theorem block_dense3 (c : Dev nD) (t : Fin cfg0.N) : mat (r := 512) (c := 6) (iblk m c 10 t) = mat (a11 m c) := by
  funext k u
  obtain ⟨e0, e1⟩ := idx_dense3 t
  show V m c main_v10 (((cfg0.win 10).blk t).view.emb (ix2 k u)) = a11 m c (ix2 k u)
  have he : ((cfg0.win 10).blk t).view.emb (ix2 k u) = ix2 k u := by
    funext a; apply Fin.ext
    match a with
    | ⟨0, _⟩ => show win0_10.index t (0 : Fin 2) * 512 + 1 * k.val = k.val; omega
    | ⟨1, _⟩ => show win0_10.index t (1 : Fin 2) * 6 + 1 * u.val = u.val; omega
  rw [he, entry_dense3]

theorem block_bias5 (c : Dev nD) (t : Fin cfg0.N) : only (n := 6) (iblk m c 11 t) = arr (a12 m c) := by
  funext u
  obtain ⟨e0, e1⟩ := idx_bias5 t
  show V m c main_v15 (((cfg0.win 11).blk t).view.emb (ix2 (0 : Fin 1) u)) = _
  have he : ((cfg0.win 11).blk t).view.emb (ix2 (0 : Fin 1) u) = ix2 (0 : Fin 1) u := by
    funext a; apply Fin.ext
    match a with
    | ⟨0, _⟩ => show win0_11.index t (0 : Fin 2) * 1 + 1 * 0 = 0; omega
    | ⟨1, _⟩ => show win0_11.index t (1 : Fin 2) * 6 + 1 * u.val = u.val; omega
  rw [he]; exact entry_bias5 m c u

/-! ## What a point writes back -/

theorem zero_offsets : (![0, 0] : Fin 2 → Nat) = fun _ => 0 := funext fun a => by fin_cases a <;> rfl

/-- Point `t` writes back block `t` of the specification. -/
theorem flushed_eq (c : Dev nD) (t : Fin cfg0.N) :
    (dats m 0 c).flushed 12 t = ((cfg0.win 12).blk t).view.read (Elt Ideal) (spec m c) := by
  rw [Value.flushed12]
  unfold Gen.out0_12
  rw [View.canon_unit_zero zero_offsets]
  simp only [View.ld_unit_zero (S := S512x1536) zero_offsets, View.ld_unit_zero (S := S1536x1536) zero_offsets,
    View.ld_unit_zero (S := S1x1536) zero_offsets, View.ld_unit_zero (S := S1536x512) zero_offsets,
    View.ld_unit_zero (S := S1x512) zero_offsets, View.ld_unit_zero (S := S512x512) zero_offsets,
    View.ld_unit_zero (S := S512x6) zero_offsets, View.ld_unit_zero (S := S1x6) zero_offsets]
  funext y
  obtain ⟨p, q, rfl⟩ : ∃ (p : Fin 512) (q : Fin 6), y = ix2 p q := ⟨y 0, y 1, eq_ix2 (n0 := 512) (n1 := 6) y⟩
  show k0_pay1 (k0_pay2 (iblk m c 0 t) (iblk m c 1 t) (iblk m c 2 t) (iblk m c 3 t) (iblk m c 4 t) (iblk m c 5 t)
      (iblk m c 6 t) (iblk m c 7 t) (iblk m c 8 t)) (iblk m c 9 t) (iblk m c 10 t) (iblk m c 11 t) (ix2 p q)
    = spec m c (((cfg0.win 12).blk t).view.emb (ix2 p q))
  refine (stored_apply (iblk m c 0 t) (iblk m c 1 t) (iblk m c 2 t) (iblk m c 3 t) (iblk m c 4 t) (iblk m c 5 t)
      (iblk m c 6 t) (iblk m c 7 t) (iblk m c 8 t) (iblk m c 9 t) (iblk m c 10 t) (iblk m c 11 t) p q).trans ?_
  rw [block_input, block_masked1, block_bias1, block_masked2_lo, block_masked2_hi, block_bias2, block_dense1, block_bias3,
    block_dense2, block_bias4, block_dense3, block_bias5, emb_result]
  exact congrFun (net_eq_netSplit (masked (mat (a2 m c)) (mat (a1 m c))) (arr (a3 m c)) (masked (mat (a5 m c)) (mat (a4 m c))) (arr (a6 m c))
    (mat (a7 m c)) (arr (a8 m c)) (mat (a9 m c)) (arr (a10 m c)) (mat (a11 m c)) (arr (a12 m c)) (mat (a0 m c) (rowOf t p))).symm q

/-! ## The blocks cover the result -/

theorem mem_block (t : Fin cfg0.N) (i : S16384x6.Idx) :
    i ∈ ((cfg0.win 12).blk t).view.set ↔ ∀ a : Fin 2, win0_12.index t a * S512x6.size a ≤ (i a).val
      ∧ (i a).val < win0_12.index t a * S512x6.size a + S512x6.size a := by
  show i ∈ ((View.whole main_v16).slice (win0_12.rect t)).set ↔ _
  rw [View.set_slice_whole, Rect.mem_set_unit]
  exact Iff.rfl

theorem cover (i : S16384x6.Idx) : ∃ t : Fin cfg0.N, (cfg0.win 12).flush t = true ∧ i ∈ ((cfg0.win 12).blk t).view.set := by
  have h0 : (i 0).val < 16384 := (i 0).isLt
  have h1 : (i 1).val < 6 := (i 1).isLt
  have hN := points
  let t : Fin cfg0.N := ⟨(i 0).val / 512, by rw [hN]; omega⟩
  obtain ⟨e0, e1⟩ := idx_result t
  have ht : t.val = (i 0).val / 512 := rfl
  refine ⟨t, flush0_12 t, ?_⟩
  rw [mem_block]
  intro a
  match a with
  | ⟨0, _⟩ =>
    show win0_12.index t (0 : Fin 2) * 512 ≤ (i 0).val ∧ (i 0).val < win0_12.index t (0 : Fin 2) * 512 + 512
    omega
  | ⟨1, _⟩ =>
    show win0_12.index t (1 : Fin 2) * 6 ≤ (i 1).val ∧ (i 1).val < win0_12.index t (1 : Fin 2) * 6 + 6
    omega

/-- The result array after the run is the specification. -/
theorem final (c : Dev nD) : (dats m 0 c).arrAt 12 cfg0.N = spec m c :=
  (dats m 0 c).arrAt_eq_of_cover 12 (spec m c) (fun t _ => flushed_eq m c t) cover

/-! ## The run -/

/-- Every weakly fair execution ends with the result array at the specification of the arguments, and the arguments
    unchanged. -/
theorem run : θ_run defs (onTc (τ := τ) (main (F := Ideal))) ⟨m, fun _ => 0, ρ⟩ fun r => ∀ c : Dev nD,
      r.2.mem ((c : Thread nD τ).loc main_v16) = spec m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12) :=
  (θ_run defs _ _).mono (fun r h c => ⟨(h c).1.trans (final m c), (h c).2⟩) (Value.run_blocks m ρ)

end Cert.KernelRun

end
-- ==== Proof.lean ====
/-
  The kernel computes a small network on every row of its input: two masked affine layers, the second on the row
  joined with the first layer's result, then three dense layers each followed by the rectifier. The reference computes
  the same network with plain jnp operations.

  Over the extended reals the two agree entry by entry. Both form the masked weights `W[k,u] · M[u,k]` the same way;
  every matrix product, on the matrix unit into a zero accumulator or on the host, is at an entry the sum over the
  contracted coordinate of the products of entries; changes of float format are the identity; the rectifier is the
  maximum with 0 on both sides. The one difference is the second masked layer: the reference contracts the joined
  3072-entry row against the whole weight, the kernel contracts the two 1536-entry halves against the weight's two
  halves and adds the results. A sum of 3072 terms is the sum of its first 1536 and its last 1536 terms in any
  commutative additive monoid, so the two agree at every input, the infinite ones included; the precondition is not
  used. The ideal pass rewrote nothing, so the kernel's idealization is its own text read over the extended reals.

  Spec.lean states the result as one function of the thirteen arguments (through Layers.lean's network on one row);
  RefValue.lean shows the reference's run ends at it; KernelValue.lean, KernelEntry.lean and KernelRun.lean show the
  kernel's run ends at it: the stored value at an entry of a block, the arrays the region finds, and the blocks
  covering the result.
-/
import proofs.«161383_j25434796327649_1_alg».proof.Defs
import proofs.«161383_j25434796327649_1_alg».proof.Proof.Gen.Kernel
import proofs.«161383_j25434796327649_1_alg».proof.Proof.Gen.Kernel.Skeleton
import proofs.«161383_j25434796327649_1_alg».proof.Proof.Gen.Kernel.Launch
import proofs.«161383_j25434796327649_1_alg».proof.Proof.Gen.Kernel.Points
import proofs.«161383_j25434796327649_1_alg».proof.Proof.Gen.Kernel.Frame
import proofs.«161383_j25434796327649_1_alg».proof.Proof.Gen.KernelIdeal
import proofs.«161383_j25434796327649_1_alg».proof.Proof.Gen.KernelIdeal.Skeleton
import proofs.«161383_j25434796327649_1_alg».proof.Proof.Gen.KernelIdeal.Launch
import proofs.«161383_j25434796327649_1_alg».proof.Proof.Gen.KernelIdeal.Points
import proofs.«161383_j25434796327649_1_alg».proof.Proof.Gen.KernelIdeal.Frame
import proofs.«161383_j25434796327649_1_alg».proof.Proof.Gen.ReferenceIdeal
import proofs.«161383_j25434796327649_1_alg».proof.Proof.Gen.Pre_finite_inputs
import proofs.«161383_j25434796327649_1_alg».proof.Proof.Gen.KernelIdeal.Value
import proofs.«161383_j25434796327649_1_alg».proof.Proof.Gen.ReferenceIdeal.Run
import proofs.«161383_j25434796327649_1_alg».proof.Proof.Gen.ReferenceIdeal.Read
import proofs.«161383_j25434796327649_1_alg».proof.Proof.RefValue
import proofs.«161383_j25434796327649_1_alg».proof.Proof.KernelRun
import Idealize.ShloMosaic.Adequacy
import Idealize.ShloMosaic.Init

noncomputable section

namespace Cert.Proof

open Idealize.ShloMosaic Idealize.ShloMosaic.TcCoe Idealize.SL.Sem

/-- The word-level kernel runs, faults nowhere and leaves its arguments as they were. -/
theorem frame_kernel : Cert.frame_Kernel := fun m ρ _ => Cert.Kernel.Gen.frame m ρ

/-- So does the kernel read over the extended reals. -/
theorem frame_kernelIdeal : Cert.frame_KernelIdeal := fun m ρ _ => Cert.KernelIdeal.Gen.frame m ρ

/-- The reference is a straight line of host operations: its run ends, with the arguments as they were. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The ideal pass rewrote no operation. -/
theorem preserves : Cert.preserves_Kernel_KernelIdeal := trivial

/-- From memories that agree on the arguments, the kernel's result array and the reference's both end at the
    specification of those arguments. -/
theorem algebraic : Cert.algebraic_KernelIdeal_ReferenceIdeal := by
  intro m ρ m' ρ' _ hagree
  refine ⟨fun c => Cert.KernelEntry.spec m c, Cert.KernelRun.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v27_eq, Cert.RefValue.reference_eq,
    (hagree c).1, (hagree c).2.1, (hagree c).2.2.1, (hagree c).2.2.2.1, (hagree c).2.2.2.2.1, (hagree c).2.2.2.2.2.1,
    (hagree c).2.2.2.2.2.2.1, (hagree c).2.2.2.2.2.2.2.1, (hagree c).2.2.2.2.2.2.2.2.1, (hagree c).2.2.2.2.2.2.2.2.2.1,
    (hagree c).2.2.2.2.2.2.2.2.2.2.1, (hagree c).2.2.2.2.2.2.2.2.2.2.2.1, (hagree c).2.2.2.2.2.2.2.2.2.2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
